-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x30x180 : Shape := ⟨3, ![64, 30, 180]⟩
abbrev S11x768 : Shape := ⟨2, ![11, 768]⟩
abbrev S768x172800 : Shape := ⟨2, ![768, 172800]⟩
abbrev S768 : Shape := ⟨1, ![768]⟩
abbrev S1x1x768 : Shape := ⟨3, ![1, 1, 768]⟩
abbrev S1x25x768 : Shape := ⟨3, ![1, 25, 768]⟩
abbrev S_ : Shape := ⟨0, ![]⟩

class Facts : Prop where
  bcast_S_S11x768 : S_.BroadcastsInDim S11x768 (![] : Fin 0 → Fin S11x768.rank)
  reducesTo_S11x768_S_d0_1 : S11x768.ReducesTo [0, 1] S_
  h_S_ : 0 < S_.numel
  bcast_S_S768x172800 : S_.BroadcastsInDim S768x172800 (![] : Fin 0 → Fin S768x172800.rank)
  reducesTo_S768x172800_S_d0_1 : S768x172800.ReducesTo [0, 1] S_
  bcast_S_S768 : S_.BroadcastsInDim S768 (![] : Fin 0 → Fin S768.rank)
  reducesTo_S768_S_d0 : S768.ReducesTo [0] S_
  bcast_S_S1x1x768 : S_.BroadcastsInDim S1x1x768 (![] : Fin 0 → Fin S1x1x768.rank)
  reducesTo_S1x1x768_S_d0_1_2 : S1x1x768.ReducesTo [0, 1, 2] S_
  bcast_S_S1x25x768 : S_.BroadcastsInDim S1x25x768 (![] : Fin 0 → Fin S1x25x768.rank)
  reducesTo_S1x25x768_S_d0_1_2 : S1x25x768.ReducesTo [0, 1, 2] S_
  bcast_S_S64x30x180 : S_.BroadcastsInDim S64x30x180 (![] : Fin 0 → Fin S64x30x180.rank)
  reducesTo_S64x30x180_S_d0_1_2 : S64x30x180.ReducesTo [0, 1, 2] S_

variable [Facts]

def fn_part1 {F : FTy → Type} [FloatOps F] (main_arg0 : IVec S64x30x180 32) (main_arg5 : FVec F S1x25x768 .f32) (main_v13 : IVec S_ 1) (main_v16 : IVec S1x1x768 1) : IVec S_ 1 :=
  let main_c_5 : IVec S_ 1 := constantI S_ 1 1#1
  let main_v17 : IVec S_ 1 := (fun x v => Host.reduce IntOp.andi x v reducesTo_S1x1x768_S_d0_1_2 h_S_) main_v16 main_c_5
  let main_v18 : IVec S_ 1 := andi main_v13 main_v17
  let main_v19 : FVec F S1x25x768 .f32 := Host.absf main_arg5
  let main_cst_6 : FVec F S_ .f32 := constant S_ .f32 0x7F800000#32
  let main_v20 : FVec F S1x25x768 .f32 := broadcastInDim S1x25x768 ![] bcast_S_S1x25x768 main_cst_6
  let main_v21 : IVec S1x25x768 1 := cmpf .olt main_v19 main_v20
  let main_c_7 : IVec S_ 1 := constantI S_ 1 1#1
  let main_v22 : IVec S_ 1 := (fun x v => Host.reduce IntOp.andi x v reducesTo_S1x25x768_S_d0_1_2 h_S_) main_v21 main_c_7
  let main_v23 : IVec S_ 1 := andi main_v18 main_v22
  let main_c_8 : IVec S_ 32 := constantI S_ 32 0#32
  let main_v24 : IVec S64x30x180 32 := broadcastInDim S64x30x180 ![] bcast_S_S64x30x180 main_c_8
  let main_v25 : IVec S64x30x180 1 := cmpi .sge main_arg0 main_v24
  let main_c_9 : IVec S_ 32 := constantI S_ 32 11#32
  let main_v26 : IVec S64x30x180 32 := broadcastInDim S64x30x180 ![] bcast_S_S64x30x180 main_c_9
  let main_v27 : IVec S64x30x180 1 := cmpi .slt main_arg0 main_v26
  let main_v28 : IVec S64x30x180 1 := andi main_v25 main_v27
  let main_c_10 : IVec S_ 1 := constantI S_ 1 1#1
  let main_v29 : IVec S_ 1 := (fun x v => Host.reduce IntOp.andi x v reducesTo_S64x30x180_S_d0_1_2 h_S_) main_v28 main_c_10
  let main_v30 : IVec S_ 1 := andi main_v23 main_v29
  main_v30

def fn {F : FTy → Type} [FloatOps F] (main_arg0 : IVec S64x30x180 32) (main_arg1 : FVec F S11x768 .f32) (main_arg2 : FVec F S768x172800 .f32) (main_arg3 : FVec F S768 .f32) (main_arg4 : FVec F S1x1x768 .f32) (main_arg5 : FVec F S1x25x768 .f32) : IVec S_ 1 :=
  let main_v0 : FVec F S11x768 .f32 := Host.absf main_arg1
  let main_cst : FVec F S_ .f32 := constant S_ .f32 0x7F800000#32
  let main_v1 : FVec F S11x768 .f32 := broadcastInDim S11x768 ![] bcast_S_S11x768 main_cst
  let main_v2 : IVec S11x768 1 := cmpf .olt main_v0 main_v1
  let main_c : IVec S_ 1 := constantI S_ 1 1#1
  let main_v3 : IVec S_ 1 := (fun x v => Host.reduce IntOp.andi x v reducesTo_S11x768_S_d0_1 h_S_) main_v2 main_c
  let main_v4 : FVec F S768x172800 .f32 := Host.absf main_arg2
  let main_cst_0 : FVec F S_ .f32 := constant S_ .f32 0x7F800000#32
  let main_v5 : FVec F S768x172800 .f32 := broadcastInDim S768x172800 ![] bcast_S_S768x172800 main_cst_0
  let main_v6 : IVec S768x172800 1 := cmpf .olt main_v4 main_v5
  let main_c_1 : IVec S_ 1 := constantI S_ 1 1#1
  let main_v7 : IVec S_ 1 := (fun x v => Host.reduce IntOp.andi x v reducesTo_S768x172800_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S1x1x768 .f32 := Host.absf main_arg4
  let main_cst_4 : FVec F S_ .f32 := constant S_ .f32 0x7F800000#32
  let main_v15 : FVec F S1x1x768 .f32 := broadcastInDim S1x1x768 ![] bcast_S_S1x1x768 main_cst_4
  let main_v16 : IVec S1x1x768 1 := cmpf .olt main_v14 main_v15
  fn_part1 (F := F) main_arg0 main_arg5 main_v13 main_v16
-- ==== Kernel.lean ====
abbrev S64x30x180 : Shape := ⟨3, ![64, 30, 180]⟩
abbrev S11x768 : Shape := ⟨2, ![11, 768]⟩
abbrev S768x172800 : Shape := ⟨2, ![768, 172800]⟩
abbrev S768 : Shape := ⟨1, ![768]⟩
abbrev S1x1x768 : Shape := ⟨3, ![1, 1, 768]⟩
abbrev S1x25x768 : Shape := ⟨3, ![1, 25, 768]⟩
abbrev S64x2x15x12x15 : Shape := ⟨5, ![64, 2, 15, 12, 15]⟩
abbrev S64x2x12x15x15 : Shape := ⟨5, ![64, 2, 12, 15, 15]⟩
abbrev S64x24x225 : Shape := ⟨3, ![64, 24, 225]⟩
abbrev S_ : Shape := ⟨0, ![]⟩
abbrev S1536x225 : Shape := ⟨2, ![1536, 225]⟩
abbrev S225x11x768 : Shape := ⟨3, ![225, 11, 768]⟩
abbrev S768x3840 : Shape := ⟨2, ![768, 3840]⟩
abbrev S5x11x768 : Shape := ⟨3, ![5, 11, 768]⟩
abbrev S768x768 : Shape := ⟨2, ![768, 768]⟩
abbrev S1x11x768 : Shape := ⟨3, ![1, 11, 768]⟩
abbrev S1x768 : Shape := ⟨2, ![1, 768]⟩
abbrev S1x24x768 : Shape := ⟨3, ![1, 24, 768]⟩
abbrev S24x768 : Shape := ⟨2, ![24, 768]⟩
abbrev S1x24x1x768 : Shape := ⟨4, ![1, 24, 1, 768]⟩
abbrev S16x24x1x768 : Shape := ⟨4, ![16, 24, 1, 768]⟩
abbrev S384x768 : Shape := ⟨2, ![384, 768]⟩
abbrev S1536x768 : Shape := ⟨2, ![1536, 768]⟩
abbrev S384x225 : Shape := ⟨2, ![384, 225]⟩
abbrev S225x1x768 : Shape := ⟨3, ![225, 1, 768]⟩
abbrev S225x768 : Shape := ⟨2, ![225, 768]⟩
abbrev S64x24x768 : Shape := ⟨3, ![64, 24, 768]⟩
abbrev S64x1x768 : Shape := ⟨3, ![64, 1, 768]⟩
abbrev S64x25x768 : Shape := ⟨3, ![64, 25, 768]⟩

abbrev nBuf : Space → Nat
  | .hbm => 32
  | .vmem => 12
  | .smem => 0
  | _ => 0

abbrev bufTy : (tb : Table) → Fin (tcTables nBuf tb) → BufTy
  | .hbm, ⟨0, _⟩ => ⟨S64x30x180, .i32⟩
  | .hbm, ⟨1, _⟩ => ⟨S11x768, .f32⟩
  | .hbm, ⟨2, _⟩ => ⟨S768x172800, .f32⟩
  | .hbm, ⟨3, _⟩ => ⟨S768, .f32⟩
  | .hbm, ⟨4, _⟩ => ⟨S1x1x768, .f32⟩
  | .hbm, ⟨5, _⟩ => ⟨S1x25x768, .f32⟩
  | .hbm, ⟨6, _⟩ => ⟨S64x2x15x12x15, .i32⟩
  | .hbm, ⟨7, _⟩ => ⟨S64x2x12x15x15, .i32⟩
  | .hbm, ⟨8, _⟩ => ⟨S64x24x225, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S64x24x225, .i32⟩
  | .hbm, ⟨13, _⟩ => ⟨S64x24x225, .i32⟩
  | .hbm, ⟨14, _⟩ => ⟨S_, .i32⟩
  | .hbm, ⟨15, _⟩ => ⟨S64x24x225, .i32⟩
  | .hbm, ⟨16, _⟩ => ⟨S64x24x225, .i32⟩
  | .hbm, ⟨17, _⟩ => ⟨S1536x225, .i32⟩
  | .hbm, ⟨18, _⟩ => ⟨S225x11x768, .f32⟩
  | .hbm, ⟨19, _⟩ => ⟨S1x768, .f32⟩
  | .hbm, ⟨20, _⟩ => ⟨S1x24x768, .f32⟩
  | .hbm, ⟨21, _⟩ => ⟨S24x768, .f32⟩
  | .hbm, ⟨22, _⟩ => ⟨S1x24x1x768, .f32⟩
  | .hbm, ⟨23, _⟩ => ⟨S16x24x1x768, .f32⟩
  | .hbm, ⟨24, _⟩ => ⟨S384x768, .f32⟩
  | .hbm, ⟨25, _⟩ => ⟨S1536x768, .f32⟩
  | .hbm, ⟨26, _⟩ => ⟨S64x24x768, .f32⟩
  | .hbm, ⟨27, _⟩ => ⟨S64x1x768, .f32⟩
  | .hbm, ⟨28, _⟩ => ⟨S1x1x768, .f32⟩
  | .hbm, ⟨29, _⟩ => ⟨S64x1x768, .f32⟩
  | .hbm, ⟨30, _⟩ => ⟨S64x1x768, .f32⟩
  | .hbm, ⟨31, _⟩ => ⟨S64x25x768, .f32⟩
  | .local _ .vmem, ⟨0, _⟩ => ⟨S11x768, .f32⟩
  | .local _ .vmem, ⟨1, _⟩ => ⟨S768x3840, .f32⟩
  | .local _ .vmem, ⟨2, _⟩ => ⟨S768x3840, .f32⟩
  | .local _ .vmem, ⟨3, _⟩ => ⟨S5x11x768, .f32⟩
  | .local _ .vmem, ⟨4, _⟩ => ⟨S5x11x768, .f32⟩
  | .local _ .vmem, ⟨5, _⟩ => ⟨S384x225, .i32⟩
  | .local _ .vmem, ⟨6, _⟩ => ⟨S384x225, .i32⟩
  | .local _ .vmem, ⟨7, _⟩ => ⟨S225x11x768, .f32⟩
  | .local _ .vmem, ⟨8, _⟩ => ⟨S1x768, .f32⟩
  | .local _ .vmem, ⟨9, _⟩ => ⟨S384x768, .f32⟩
  | .local _ .vmem, ⟨10, _⟩ => ⟨S384x768, .f32⟩
  | .local _ .vmem, ⟨11, _⟩ => ⟨S384x768, .f32⟩
  | _, _ => ⟨S64x30x180, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![45], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S11x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x3840 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x11x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S384x225 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S225x11x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S384x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S64x30x180_S64x2x15x12x15 : S64x30x180.ShapeCasts S64x2x15x12x15
  transposes_S64x2x15x12x15_S64x2x12x15x15_0_1_3_2_4 : S64x2x15x12x15.Transposes [0, 1, 3, 2, 4] S64x2x12x15x15
  shapeCasts_S64x2x12x15x15_S64x24x225 : S64x2x12x15x15.ShapeCasts S64x24x225
  bcast_S_S64x24x225 : S_.BroadcastsInDim S64x24x225 (![] : Fin 0 → Fin S64x24x225.rank)
  shapeCasts_S64x24x225_S1536x225 : S64x24x225.ShapeCasts S1536x225
  inb_S11x768_S11x768_0_0 : ∀ a, (![0, 0] : Fin 2 → Nat) a + S11x768.size a ≤ S11x768.size a
  h_S11x768 : 0 < S11x768.numel
  bitsLt_bf16_f32 : FTy.bits .bf16 < FTy.bits .f32
  inb_S768x3840_S768x768_0_0 : ∀ a, (![0, 0] : Fin 2 → Nat) a + S768x768.size a ≤ S768x3840.size a
  h_S768x768 : 0 < S768x768.numel
  inb_S5x11x768_S1x11x768_0_0_0 : ∀ a, (![0, 0, 0] : Fin 3 → Nat) a + S1x11x768.size a ≤ S5x11x768.size a
  h_S1x11x768 : 0 < S1x11x768.numel
  shapeCasts_S1x11x768_S11x768 : S1x11x768.ShapeCasts S11x768
  shapeCasts_S11x768_S1x11x768 : S11x768.ShapeCasts S1x11x768
  inb_S768x3840_S768x768_0_768 : ∀ a, (![0, 768] : Fin 2 → Nat) a + S768x768.size a ≤ S768x3840.size a
  inb_S5x11x768_S1x11x768_1_0_0 : ∀ a, (![1, 0, 0] : Fin 3 → Nat) a + S1x11x768.size a ≤ S5x11x768.size a
  inb_S768x3840_S768x768_0_1536 : ∀ a, (![0, 1536] : Fin 2 → Nat) a + S768x768.size a ≤ S768x3840.size a
  inb_S5x11x768_S1x11x768_2_0_0 : ∀ a, (![2, 0, 0] : Fin 3 → Nat) a + S1x11x768.size a ≤ S5x11x768.size a
  inb_S768x3840_S768x768_0_2304 : ∀ a, (![0, 2304] : Fin 2 → Nat) a + S768x768.size a ≤ S768x3840.size a
  inb_S5x11x768_S1x11x768_3_0_0 : ∀ a, (![3, 0, 0] : Fin 3 → Nat) a + S1x11x768.size a ≤ S5x11x768.size a
  inb_S768x3840_S768x768_0_3072 : ∀ a, (![0, 3072] : Fin 2 → Nat) a + S768x768.size a ≤ S768x3840.size a
  inb_S5x11x768_S1x11x768_4_0_0 : ∀ a, (![4, 0, 0] : Fin 3 → Nat) a + S1x11x768.size a ≤ S5x11x768.size a
  shapeCasts_S768_S1x768 : S768.ShapeCasts S1x768
  slices_S1x25x768_S1x24x768_0_1_0 : S1x25x768.Slices ![0, 1, 0] S1x24x768
  shapeCasts_S1x24x768_S24x768 : S1x24x768.ShapeCasts S24x768
  shapeCasts_S24x768_S1x24x1x768 : S24x768.ShapeCasts S1x24x1x768
  bcast_S1x24x1x768_S16x24x1x768_0_1_2_3 : S1x24x1x768.BroadcastsInDim S16x24x1x768 (![0, 1, 2, 3] : Fin 4 → Fin S16x24x1x768.rank)
  shapeCasts_S16x24x1x768_S384x768 : S16x24x1x768.ShapeCasts S384x768
  inb_S384x225_S384x225_0_0 : ∀ a, (![0, 0] : Fin 2 → Nat) a + S384x225.size a ≤ S384x225.size a
  h_S384x225 : 0 < S384x225.numel
  shapeCasts_S384x225_S384x225 : S384x225.ShapeCasts S384x225
  natLt_1_32 : 1 < 32
  inb_S225x11x768_S225x1x768_0_0_0 : ∀ a, (![0, 0, 0] : Fin 3 → Nat) a + S225x1x768.size a ≤ S225x11x768.size a
  h_S225x1x768 : 0 < S225x1x768.numel
  shapeCasts_S225x1x768_S225x768 : S225x1x768.ShapeCasts S225x768
  inb_S225x11x768_S225x1x768_0_1_0 : ∀ a, (![0, 1, 0] : Fin 3 → Nat) a + S225x1x768.size a ≤ S225x11x768.size a
  inb_S225x11x768_S225x1x768_0_2_0 : ∀ a, (![0, 2, 0] : Fin 3 → Nat) a + S225x1x768.size a ≤ S225x11x768.size a
  inb_S225x11x768_S225x1x768_0_3_0 : ∀ a, (![0, 3, 0] : Fin 3 → Nat) a + S225x1x768.size a ≤ S225x11x768.size a
  inb_S225x11x768_S225x1x768_0_4_0 : ∀ a, (![0, 4, 0] : Fin 3 → Nat) a + S225x1x768.size a ≤ S225x11x768.size a
  inb_S225x11x768_S225x1x768_0_5_0 : ∀ a, (![0, 5, 0] : Fin 3 → Nat) a + S225x1x768.size a ≤ S225x11x768.size a
  inb_S225x11x768_S225x1x768_0_6_0 : ∀ a, (![0, 6, 0] : Fin 3 → Nat) a + S225x1x768.size a ≤ S225x11x768.size a
  inb_S225x11x768_S225x1x768_0_7_0 : ∀ a, (![0, 7, 0] : Fin 3 → Nat) a + S225x1x768.size a ≤ S225x11x768.size a
  inb_S225x11x768_S225x1x768_0_8_0 : ∀ a, (![0, 8, 0] : Fin 3 → Nat) a + S225x1x768.size a ≤ S225x11x768.size a
  inb_S225x11x768_S225x1x768_0_9_0 : ∀ a, (![0, 9, 0] : Fin 3 → Nat) a + S225x1x768.size a ≤ S225x11x768.size a
  inb_S225x11x768_S225x1x768_0_10_0 : ∀ a, (![0, 10, 0] : Fin 3 → Nat) a + S225x1x768.size a ≤ S225x11x768.size a
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S384x768 : S1x768.Broadcasts S384x768
  inb_S384x768_S384x768_0_0 : ∀ a, (![0, 0] : Fin 2 → Nat) a + S384x768.size a ≤ S384x768.size a
  h_S384x768 : 0 < S384x768.numel
  shapeCasts_S384x768_S384x768 : S384x768.ShapeCasts S384x768
  shapeCasts_S1536x768_S64x24x768 : S1536x768.ShapeCasts S64x24x768
  bcast_S1x1x768_S64x1x768_0_1_2 : S1x1x768.BroadcastsInDim S64x1x768 (![0, 1, 2] : Fin 3 → Fin S64x1x768.rank)
  slices_S1x25x768_S1x1x768_0_0_0 : S1x25x768.Slices ![0, 0, 0] S1x1x768
  concatenates_S64x1x768_S64x24x768_S64x25x768_d1 : Shape.Concatenates [S64x1x768, S64x24x768] S64x25x768 1
  dot_S11x768_S768x768_S11x768_1_1_0_0_n_n_wf : DotDims.WF S11x768 S768x768 S11x768 [1] [1] [0] [0] [] []
  dot_S384x225_S225x768_S384x768_1_0_0_1_n_n_wf : DotDims.WF S384x225 S225x768 S384x768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S11x768.size a ≤ S11x768.size a
  hwx0_0 : ∀ i : grid0.Coords, EltTy.bits .f32 = 32 ∨ (Rect.block (s := S11x768) S11x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x3840.size a ≤ S768x172800.size a
  hwx0_1 : ∀ i : grid0.Coords, EltTy.bits .f32 = 32 ∨ (Rect.block (s := S768x172800) S768x3840.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5x11x768.size a ≤ S225x11x768.size a
  hwx0_2 : ∀ i : grid0.Coords, EltTy.bits .f32 = 32 ∨ (Rect.block (s := S225x11x768) S5x11x768.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S384x225.size a ≤ S1536x225.size a
  hwx1_0 : ∀ i : grid1.Coords, EltTy.bits .i32 = 32 ∨ (Rect.block (s := S1536x225) S384x225.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S225x11x768.size a ≤ S225x11x768.size a
  hwx1_1 : ∀ i : grid1.Coords, EltTy.bits .f32 = 32 ∨ (Rect.block (s := S225x11x768) S225x11x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x768.size a ≤ S384x768.size a
  hwx1_3 : ∀ i : grid1.Coords, EltTy.bits .f32 = 32 ∨ (Rect.block (s := S384x768) S384x768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S384x768.size a ≤ S1536x768.size a
  hwx1_4 : ∀ i : grid1.Coords, EltTy.bits .f32 = 32 ∨ (Rect.block (s := S1536x768) S384x768.size (cc1_transform_4 i) (hinb1_4 i)).WholeWords (EltTy.packing .f32)

variable [Facts₀]

def dot_S11x768_S768x768_S11x768_1_1_0_0_n_n : DotDims S11x768 S768x768 S11x768 where
  lhsContracting := [1]
  rhsContracting := [1]
  lhsNonContracting := [0]
  rhsNonContracting := [0]
  lhsBatch := []
  rhsBatch := []
  wf := dot_S11x768_S768x768_S11x768_1_1_0_0_n_n_wf
def dot_S384x225_S225x768_S384x768_1_0_0_1_n_n : DotDims S384x225 S225x768 S384x768 where
  lhsContracting := [1]
  rhsContracting := [0]
  lhsNonContracting := [0]
  rhsNonContracting := [1]
  lhsBatch := []
  rhsBatch := []
  wf := dot_S384x225_S225x768_S384x768_1_0_0_1_n_n_wf

abbrev win0_0 : Pipeline.Window sig grid0 :=
  Pipeline.Window.ofSpec (Memref.whole main_arg1) S11x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x3840.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5x11x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S384x225.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S225x11x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S384x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S384x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x30x180 : Shape := ⟨3, ![64, 30, 180]⟩
abbrev S11x768 : Shape := ⟨2, ![11, 768]⟩
abbrev S768x172800 : Shape := ⟨2, ![768, 172800]⟩
abbrev S768 : Shape := ⟨1, ![768]⟩
abbrev S1x1x768 : Shape := ⟨3, ![1, 1, 768]⟩
abbrev S1x25x768 : Shape := ⟨3, ![1, 25, 768]⟩
abbrev S64x2x15x12x15 : Shape := ⟨5, ![64, 2, 15, 12, 15]⟩
abbrev S64x2x12x15x15 : Shape := ⟨5, ![64, 2, 12, 15, 15]⟩
abbrev S64x24x15x15 : Shape := ⟨4, ![64, 24, 15, 15]⟩
abbrev S_ : Shape := ⟨0, ![]⟩
abbrev S64x24x15x15x1 : Shape := ⟨5, ![64, 24, 15, 15, 1]⟩
abbrev S64x24x15x15x768 : Shape := ⟨5, ![64, 24, 15, 15, 768]⟩
abbrev S64x24x172800 : Shape := ⟨3, ![64, 24, 172800]⟩
abbrev S64x24x768 : Shape := ⟨3, ![64, 24, 768]⟩
abbrev S64x1x768 : Shape := ⟨3, ![64, 1, 768]⟩
abbrev S64x25x768 : Shape := ⟨3, ![64, 25, 768]⟩

abbrev nBuf : Space → Nat
  | .hbm => 27
  | .vmem => 0
  | .smem => 0
  | _ => 0

abbrev bufTy : (tb : Table) → Fin (tcTables nBuf tb) → BufTy
  | .hbm, ⟨0, _⟩ => ⟨S64x30x180, .i32⟩
  | .hbm, ⟨1, _⟩ => ⟨S11x768, .f32⟩
  | .hbm, ⟨2, _⟩ => ⟨S768x172800, .f32⟩
  | .hbm, ⟨3, _⟩ => ⟨S768, .f32⟩
  | .hbm, ⟨4, _⟩ => ⟨S1x1x768, .f32⟩
  | .hbm, ⟨5, _⟩ => ⟨S1x25x768, .f32⟩
  | .hbm, ⟨6, _⟩ => ⟨S64x2x15x12x15, .i32⟩
  | .hbm, ⟨7, _⟩ => ⟨S64x2x12x15x15, .i32⟩
  | .hbm, ⟨8, _⟩ => ⟨S64x24x15x15, .i32⟩
  | .hbm, ⟨9, _⟩ => ⟨S_, .i32⟩
  | .hbm, ⟨10, _⟩ => ⟨S64x24x15x15, .i32⟩
  | .hbm, ⟨11, _⟩ => ⟨S64x24x15x15, .i1⟩
  | .hbm, ⟨12, _⟩ => ⟨S_, .i32⟩
  | .hbm, ⟨13, _⟩ => ⟨S64x24x15x15, .i32⟩
  | .hbm, ⟨14, _⟩ => ⟨S64x24x15x15, .i32⟩
  | .hbm, ⟨15, _⟩ => ⟨S64x24x15x15, .i32⟩
  | .hbm, ⟨16, _⟩ => ⟨S64x24x15x15x1, .i32⟩
  | .hbm, ⟨17, _⟩ => ⟨S64x24x15x15x768, .f32⟩
  | .hbm, ⟨18, _⟩ => ⟨S64x24x172800, .f32⟩
  | .hbm, ⟨19, _⟩ => ⟨S64x24x768, .f32⟩
  | .hbm, ⟨20, _⟩ => ⟨S1x1x768, .f32⟩
  | .hbm, ⟨21, _⟩ => ⟨S64x24x768, .f32⟩
  | .hbm, ⟨22, _⟩ => ⟨S64x24x768, .f32⟩
  | .hbm, ⟨23, _⟩ => ⟨S64x1x768, .f32⟩
  | .hbm, ⟨24, _⟩ => ⟨S64x25x768, .f32⟩
  | .hbm, ⟨25, _⟩ => ⟨S64x25x768, .f32⟩
  | .hbm, ⟨26, _⟩ => ⟨S64x25x768, .f32⟩
  | _, _ => ⟨S64x30x180, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  shapeCasts_S64x30x180_S64x2x15x12x15 : S64x30x180.ShapeCasts S64x2x15x12x15
  transposes_S64x2x15x12x15_S64x2x12x15x15_0_1_3_2_4 : S64x2x15x12x15.Transposes [0, 1, 3, 2, 4] S64x2x12x15x15
  shapeCasts_S64x2x12x15x15_S64x24x15x15 : S64x2x12x15x15.ShapeCasts S64x24x15x15
  bcast_S_S64x24x15x15 : S_.BroadcastsInDim S64x24x15x15 (![] : Fin 0 → Fin S64x24x15x15.rank)
  bcast_S64x24x15x15_S64x24x15x15x1_0_1_2_3 : S64x24x15x15.BroadcastsInDim S64x24x15x15x1 (![0, 1, 2, 3] : Fin 4 → Fin S64x24x15x15x1.rank)
  shapeCasts_S64x24x15x15x768_S64x24x172800 : S64x24x15x15x768.ShapeCasts S64x24x172800
  bcast_S768_S1x1x768_2 : S768.BroadcastsInDim S1x1x768 (![2] : Fin 1 → Fin S1x1x768.rank)
  bcast_S1x1x768_S64x24x768_0_1_2 : S1x1x768.BroadcastsInDim S64x24x768 (![0, 1, 2] : Fin 3 → Fin S64x24x768.rank)
  bcast_S1x1x768_S64x1x768_0_1_2 : S1x1x768.BroadcastsInDim S64x1x768 (![0, 1, 2] : Fin 3 → Fin S64x1x768.rank)
  concatenates_S64x1x768_S64x24x768_S64x25x768_d1 : Shape.Concatenates [S64x1x768, S64x24x768] S64x25x768 1
  bcast_S1x25x768_S64x25x768_0_1_2 : S1x25x768.BroadcastsInDim S64x25x768 (![0, 1, 2] : Fin 3 → Fin S64x25x768.rank)
  gather_S11x768_S64x24x15x15x1_S64x24x15x15x768_4_0_n_n_0_4_1768_wf : GatherDims.WF S11x768 S64x24x15x15x1 S64x24x15x15x768 [4] [0] [] [0] [] 4 ![1, 768]
  dot_S64x24x172800_S768x172800_S64x24x768_2_1_01_0_n_n_wf : DotDims.WF S64x24x172800 S768x172800 S64x24x768 [2] [1] [0, 1] [0] [] []

variable [Facts₀]

def gather_S11x768_S64x24x15x15x1_S64x24x15x15x768_4_0_n_n_0_4_1768 : GatherDims S11x768 S64x24x15x15x1 S64x24x15x15x768 where
  offsetDims := [4]
  collapsedSliceDims := [0]
  operandBatchingDims := []
  startIndicesBatchingDims := []
  startIndexMap := [0]
  indexVectorDim := 4
  sliceSizes := ![1, 768]
  wf := gather_S11x768_S64x24x15x15x1_S64x24x15x15x768_4_0_n_n_0_4_1768_wf
def dot_S64x24x172800_S768x172800_S64x24x768_2_1_01_0_n_n : DotDims S64x24x172800 S768x172800 S64x24x768 where
  lhsContracting := [2]
  rhsContracting := [1]
  lhsNonContracting := [0, 1]
  rhsNonContracting := [0]
  lhsBatch := []
  rhsBatch := []
  wf := dot_S64x24x172800_S768x172800_S64x24x768_2_1_01_0_n_n_wf

class Facts : Prop extends Facts₀ where

variable [Facts]
-- ==== Proof.Spec.lean ====
/-
  The mathematics of the patch embedding, stated once over plain index types.

  An image is a 30 × 180 grid of tokens cut into 2 × 12 = 24 patches of 15 × 15 tokens. Row `r = 24 b + n` of the
  flattened patch matrix is patch `n` of image `b`, and column `q = 15 p₁ + p₂` is the token at row `p₁`, column
  `p₂` inside the patch: the image's entry at row `15 (n / 12) + p₁`, column `15 (n % 12) + p₂`.

  The linear layer contracts the 225 · 768 embedded features of a patch with a weight row. Because a token takes
  one of 11 values, the contraction factors through the table
      wcomb q v d = ∑ e, E v e · W d (768 q + e)
  and the projection of a patch is  ∑ q, wcomb q (token q) d: a sum over the eleven token values of an
  indicator times the table collapses to the table at the token. Only commutativity and associativity of
  the extended reals' sum are used, and `1 · x = x`, `0 · x = 0`, which hold at the infinities too.
-/
import Idealize.ShloMosaic.Lib.ValueIdx
import Idealize.ShloMosaic.PureOps.Ideal

noncomputable section

open scoped BigOperators

namespace Cert.PatchEmbed

open Idealize.ShloMosaic Idealize.ShloMosaic.ValueIdx

/-- The token image. -/
abbrev SX : Shape := ⟨3, ![64, 30, 180]⟩
/-- The embedding table. -/
abbrev SE : Shape := ⟨2, ![11, 768]⟩
/-- The linear layer's weight. -/
abbrev SW : Shape := ⟨2, ![768, 172800]⟩
/-- Its bias. -/
abbrev SB : Shape := ⟨1, ![768]⟩
/-- The class token. -/
abbrev SC : Shape := ⟨3, ![1, 1, 768]⟩
/-- The position embedding. -/
abbrev SP : Shape := ⟨3, ![1, 25, 768]⟩
/-- The result. -/
abbrev SO : Shape := ⟨3, ![64, 25, 768]⟩
/-- The flattened patch matrix: 64 · 24 rows, 225 positions. -/
abbrev SPat : Shape := ⟨2, ![1536, 225]⟩
/-- The folded table: position, token value, feature. -/
abbrev SWc : Shape := ⟨3, ![225, 11, 768]⟩
/-- The bias as a row. -/
abbrev SB2 : Shape := ⟨2, ![1, 768]⟩
/-- The patches' position embedding repeated over one tile of 16 images. -/
abbrev SPR : Shape := ⟨2, ![384, 768]⟩
/-- The projection, flattened over (image, patch). -/
abbrev SProj : Shape := ⟨2, ![1536, 768]⟩

/-- Where token `q` of flattened patch row `r` sits in the image. -/
def tokIdx (r : Fin 1536) (q : Fin 225) : SX.Idx :=
  ix3 (⟨r.val / 24, by have := r.isLt; omega⟩ : Fin 64)
    (⟨r.val % 24 / 12 * 15 + q.val / 15, by have := r.isLt; have := q.isLt; omega⟩ : Fin 30)
    (⟨r.val % 24 % 12 * 15 + q.val % 15, by have := r.isLt; have := q.isLt; omega⟩ : Fin 180)

/-- Column `768 q + e` of the weight: feature `e` of position `q`. -/
def wcol (q : Fin 225) (e : Fin 768) : Fin 172800 := ⟨q.val * 768 + e.val, by have := q.isLt; have := e.isLt; omega⟩

/-- The embedding table folded into the weight: position `q`, token value `v`, output feature `d`. -/
def wcomb (E : SE.Idx → EReal) (W : SW.Idx → EReal) (q : Fin 225) (v : Fin 11) (d : Fin 768) : EReal :=
  ∑ e : Fin 768, E (ix2 v e) * W (ix2 d (wcol q e))

/-- The indicator of "the word is the token value `v`", as an extended real. -/
def hot (w : BitVec 32) (v : Nat) : EReal := if w = BitVec.ofNat 32 v then 1 else 0

/-- What the projection leaves at row `r`, feature `d`, from a patch matrix `P` of words, a folded table `Wc`, a
    bias row and a repeated position embedding: the eleven indicator products summed, then the bias, then the
    position embedding of the row's place in its tile. -/
def projAt (P : SPat.Idx → BitVec 32) (Wc : SWc.Idx → EReal) (B2 : SB2.Idx → EReal) (PR : SPR.Idx → EReal)
    (r : Fin 1536) (d : Fin 768) : EReal :=
  ((∑ v : Fin 11, ∑ q : Fin 225, hot (P (ix2 r q)) v.val * Wc (ix3 q v d)) + B2 (ix2 (0 : Fin 1) d))
    + PR (ix2 (⟨r.val % 384, Nat.mod_lt _ (by decide)⟩ : Fin 384) d)

/-- A token word clamped to the table's rows `0 … 10` (signed). -/
def clampTok (w : BitVec 32) : BitVec 32 := IntOp.minsi 10#32 (IntOp.maxsi 0#32 w)

/-- The flattened row of image `b`, patch `j - 1` (for a result row `j ≥ 1`). -/
def rowOf (b : Fin 64) (j : Fin 25) : Fin 1536 := ⟨b.val * 24 + (j.val - 1), by have := b.isLt; have := j.isLt; omega⟩

/-- THE KERNEL'S RESULT at image `b`, result row `j`, feature `d`: row 0 is the class token plus its position
    embedding; row `j ≥ 1` is the projection of patch `j - 1` over the folded table. -/
def kerAt (X : SX.Idx → BitVec 32) (E : SE.Idx → EReal) (W : SW.Idx → EReal) (B : SB.Idx → EReal) (C : SC.Idx → EReal)
    (Pos : SP.Idx → EReal) (b : Fin 64) (j : Fin 25) (d : Fin 768) : EReal :=
  if j.val = 0 then C (ix3 (0 : Fin 1) (0 : Fin 1) d) + Pos (ix3 (0 : Fin 1) (0 : Fin 25) d)
  else ((∑ v : Fin 11, ∑ q : Fin 225, hot (clampTok (X (tokIdx (rowOf b j) q))) v.val * wcomb E W q v d) + B (ix1 d))
    + Pos (ix3 (0 : Fin 1) j d)

/-- The row of the table a token word selects in the reference: a negative word wraps by 11, and the result is
    clamped to `0 … 10`. -/
def refRow (w : BitVec 32) : Fin 11 :=
  ⟨min (Scalar.select (IntOp.cmpi .slt w 0#32) (IntOp.addi w 11#32) w).toInt.toNat 10, by omega⟩

/-- THE REFERENCE'S RESULT at the same place: the gathered embeddings contracted with the weight row over all
    172800 features, plus bias, plus position embedding. -/
def refAt (X : SX.Idx → BitVec 32) (E : SE.Idx → EReal) (W : SW.Idx → EReal) (B : SB.Idx → EReal) (C : SC.Idx → EReal)
    (Pos : SP.Idx → EReal) (b : Fin 64) (j : Fin 25) (d : Fin 768) : EReal :=
  if j.val = 0 then C (ix3 (0 : Fin 1) (0 : Fin 1) d) + Pos (ix3 (0 : Fin 1) (0 : Fin 25) d)
  else ((∑ k : Fin 172800, E (ix2 (refRow (X (tokIdx (rowOf b j) ⟨k.val / 768, by have := k.isLt; omega⟩)))
            (⟨k.val % 768, Nat.mod_lt _ (by decide)⟩ : Fin 768)) * W (ix2 d k)) + B (ix1 d))
    + Pos (ix3 (0 : Fin 1) j d)

end Cert.PatchEmbed

end
-- ==== Proof.Bridge.lean ====
import proofs.«425871_j35725537968368_3_alg».proof.Proof.Spec
import Idealize.ShloMosaic.Lib.StableHlo.Predicate

noncomputable section

open scoped BigOperators

namespace Cert.PatchEmbed

open Idealize.ShloMosaic Idealize.ShloMosaic.ValueIdx

/-! ## Words below 11: the clamp, the wrapped row and the indicator -/

/-- A word below 11 reads the same signed and unsigned. -/
theorem toInt_of_lt {w : BitVec 32} (hw : w.toNat < 11) : w.toInt = w.toNat :=
  StableHlo.Predicate.toInt_eq_toNat_of_lt (by omega)

/-- A word already in `0 … 10` is its own clamp. -/
theorem clampTok_of_lt {w : BitVec 32} (hw : w.toNat < 11) : clampTok w = w := by
  have hti : w.toInt = w.toNat := toInt_of_lt hw
  have h0 : (0#32 : BitVec 32).toInt = 0 := by decide
  have h10 : (10#32 : BitVec 32).toInt = 10 := by decide
  have hmax : IntOp.maxsi 0#32 w = w := by
    unfold IntOp.maxsi
    split <;> rename_i hc <;> simp only [BitVec.slt, hti, h0, decide_eq_true_eq] at hc
    · omega
    · rfl
  unfold clampTok
  rw [hmax]
  unfold IntOp.minsi
  split <;> rename_i hc <;> simp only [BitVec.slt, hti, h10, decide_eq_true_eq] at hc
  · omega
  · rfl

/-- A word in `0 … 10` is not negative, so the reference neither wraps nor clamps it: it selects its own row. -/
theorem refRow_of_lt {w : BitVec 32} (hw : w.toNat < 11) : refRow w = ⟨w.toNat, hw⟩ := by
  have hti : w.toInt = w.toNat := toInt_of_lt hw
  have h0 : (0#32 : BitVec 32).toInt = 0 := by decide
  have hc : IntOp.cmpi .slt w 0#32 = 0#1 := by
    unfold IntOp.cmpi
    have : w.slt 0#32 = false := by
      simp only [BitVec.slt, hti, h0, decide_eq_false_iff_not]; omega
    rw [this]; rfl
  apply Fin.ext
  show min (Scalar.select (IntOp.cmpi .slt w 0#32) (IntOp.addi w 11#32) w).toInt.toNat 10 = w.toNat
  rw [hc, Scalar.select, if_neg (by decide), hti, Int.toNat_natCast]
  omega

/-- A word below 11 is the word of the value `v < 11` exactly when its value is `v`. -/
theorem eq_ofNat_iff {w : BitVec 32} (v : Fin 11) : w = BitVec.ofNat 32 v.val ↔ w.toNat = v.val := by
  have hv := v.isLt
  constructor
  · intro h; rw [h, BitVec.toNat_ofNat]; exact Nat.mod_eq_of_lt (by omega)
  · intro h; apply BitVec.eq_of_toNat_eq; rw [BitVec.toNat_ofNat, Nat.mod_eq_of_lt (by omega)]; exact h

/-- The eleven indicators of a word below 11 pick out one term of a sum: the term at the word's value. -/
theorem sum_hot {w : BitVec 32} (hw : w.toNat < 11) (f : Fin 11 → EReal) :
    ∑ v : Fin 11, hot w v.val * f v = f ⟨w.toNat, hw⟩ := by
  rw [Finset.sum_eq_single (⟨w.toNat, hw⟩ : Fin 11)]
  · rw [hot, if_pos ((eq_ofNat_iff ⟨w.toNat, hw⟩).2 rfl), one_mul]
  · intro v _ hv
    have hne : ¬ w = BitVec.ofNat 32 v.val := fun h => hv (Fin.ext ((eq_ofNat_iff v).1 h).symm)
    rw [hot, if_neg hne, zero_mul]
  · intro h; exact absurd (Finset.mem_univ _) h

/-! ## The weight's columns: `k = 768 q + e` -/

/-- A column of the weight is a position `q` and a feature `e`: `k = 768 q + e`, `q = k / 768`, `e = k % 768`. -/
def colEquiv : Fin 225 × Fin 768 ≃ Fin 172800 where
  toFun p := wcol p.1 p.2
  invFun k := (⟨k.val / 768, by have := k.isLt; omega⟩, ⟨k.val % 768, Nat.mod_lt _ (by decide)⟩)
  left_inv p := by
    obtain ⟨q, e⟩ := p
    have := q.isLt; have := e.isLt
    apply Prod.ext <;> apply Fin.ext <;> simp only [wcol] <;> omega
  right_inv k := by
    apply Fin.ext; simp only [wcol]; omega

/-- A sum over the 172800 columns is the double sum over positions and features. -/
theorem sum_cols (g : Fin 172800 → EReal) : ∑ k, g k = ∑ q : Fin 225, ∑ e : Fin 768, g (wcol q e) := by
  rw [← Equiv.sum_comp colEquiv g, Fintype.sum_prod_type]
  rfl

/-! ## The projection of one patch row -/

/-- The eleven indicator products over the folded table, summed over the positions, are the contraction of the
    gathered embeddings with the weight row: at each position the indicators select the table at the token, the
    folded table there is the sum over the features, and the pairs (position, feature) are the columns. -/
theorem proj_eq (X : SX.Idx → BitVec 32) (E : SE.Idx → EReal) (W : SW.Idx → EReal) (hX : ∀ i, (X i).toNat < 11)
    (r : Fin 1536) (d : Fin 768) :
    (∑ v : Fin 11, ∑ q : Fin 225, hot (clampTok (X (tokIdx r q))) v.val * wcomb E W q v d)
      = ∑ k : Fin 172800, E (ix2 (refRow (X (tokIdx r ⟨k.val / 768, by have := k.isLt; omega⟩)))
            (⟨k.val % 768, Nat.mod_lt _ (by decide)⟩ : Fin 768)) * W (ix2 d k) := by
  have hL : ∀ q : Fin 225, (∑ v : Fin 11, hot (clampTok (X (tokIdx r q))) v.val * wcomb E W q v d)
      = ∑ e : Fin 768, E (ix2 (⟨(X (tokIdx r q)).toNat, hX _⟩ : Fin 11) e) * W (ix2 d (wcol q e)) := by
    intro q
    rw [clampTok_of_lt (hX _), sum_hot (hX _) (fun v => wcomb E W q v d)]
    rfl
  have hR : ∀ (q : Fin 225) (e : Fin 768),
      E (ix2 (refRow (X (tokIdx r ⟨(wcol q e).val / 768, by have := (wcol q e).isLt; omega⟩)))
            (⟨(wcol q e).val % 768, Nat.mod_lt _ (by decide)⟩ : Fin 768)) * W (ix2 d (wcol q e))
        = E (ix2 (⟨(X (tokIdx r q)).toNat, hX _⟩ : Fin 11) e) * W (ix2 d (wcol q e)) := by
    intro q e
    have hq : (⟨(wcol q e).val / 768, by have := (wcol q e).isLt; omega⟩ : Fin 225) = q := by
      apply Fin.ext; have := e.isLt; simp only [wcol]; omega
    have he : (⟨(wcol q e).val % 768, Nat.mod_lt _ (by decide)⟩ : Fin 768) = e := by
      apply Fin.ext; have := e.isLt; simp only [wcol]; omega
    rw [hq, he, refRow_of_lt (hX _)]
  rw [Finset.sum_comm, sum_cols]
  exact Finset.sum_congr rfl (fun q _ => (hL q).trans (Finset.sum_congr rfl (fun e _ => (hR q e).symm)))

/-- On token images whose every word is one of `0 … 10` the kernel's result and the reference's agree. -/
theorem kerAt_eq_refAt (X : SX.Idx → BitVec 32) (E : SE.Idx → EReal) (W : SW.Idx → EReal) (B : SB.Idx → EReal)
    (C : SC.Idx → EReal) (Pos : SP.Idx → EReal) (hX : ∀ i, (X i).toNat < 11) (b : Fin 64) (j : Fin 25) (d : Fin 768) :
    kerAt X E W B C Pos b j d = refAt X E W B C Pos b j d := by
  unfold kerAt refAt
  by_cases hj : j.val = 0
  · rw [if_pos hj, if_pos hj]
  · rw [if_neg hj, if_neg hj, proj_eq X E W hX (rowOf b j) d]

end Cert.PatchEmbed

end
-- ==== Proof.PreRange.lean ====
import proofs.«425871_j35725537968368_3_alg».proof.Pre_finite_inputs
import Idealize.ShloMosaic.Lib.ReduceAll
import Idealize.ShloMosaic.Lib.ValueIdx
import Idealize.ShloMosaic.Lib.StableHlo.Predicate

noncomputable section

namespace Cert.Pre_finite_inputs.Range

open Idealize.ShloMosaic Idealize.ShloMosaic.ValueIdx Cert.Pre_finite_inputs

/-- A 32-bit word that is signed `≥ 0` and signed `< 11` has a value below 11: a signed value is the value or
    the value less 2³², and the second is negative. -/
theorem toNat_lt_of_signed {w : BitVec 32} (hge : IntOp.cmpi .sge w 0#32 = 1#1) (hlt : IntOp.cmpi .slt w 11#32 = 1#1) :
    w.toNat < 11 := by
  have h0 : (0#32 : BitVec 32).toInt = 0 := by decide
  have h11 : (11#32 : BitVec 32).toInt = 11 := by decide
  have hge' : BitVec.ofBool ((0#32 : BitVec 32).sle w) = 1#1 := hge
  have hlt' : BitVec.ofBool (w.slt 11#32) = 1#1 := hlt
  simp only [StableHlo.Predicate.ofBool_eq_one_iff, BitVec.sle, BitVec.slt, decide_eq_true_eq, h0, h11] at hge' hlt'
  have hw := w.isLt
  rw [BitVec.toInt_eq_toNat_cond] at hge' hlt'
  by_cases hc : 2 * w.toNat < 2 ^ 32
  · rw [if_pos hc] at hge' hlt'; omega
  · rw [if_neg hc] at hge' hlt'; omega

variable [Cert.Pre_finite_inputs.Facts] {F : FTy → Type} [FloatOps F]

/-- The precondition's last conjunct: every token word is one of `0 … 10`. -/
theorem tok_range (x : IVec S64x30x180 32) (e : FVec F S11x768 .f32) (w : FVec F S768x172800 .f32) (b : FVec F S768 .f32)
    (cl : FVec F S1x1x768 .f32) (p : FVec F S1x25x768 .f32)
    (h : Cert.Pre_finite_inputs.fn (F := F) x e w b cl p = fun _ => 1#1) (i : S64x30x180.Idx) : (x i).toNat < 11 := by
  -- the predicate is a conjunction of one-bit scalars; its last conjunct is the `all` over the token image
  have h0 : fn (F := F) x e w b cl p ix0 = 1#1 := congrFun h ix0
  have hlast : Host.reduce IntOp.andi
      (andi (cmpi .sge x (broadcastInDim S64x30x180 ![] Facts.bcast_S_S64x30x180 (constantI S_ 32 0#32)))
        (cmpi .slt x (broadcastInDim S64x30x180 ![] Facts.bcast_S_S64x30x180 (constantI S_ 32 11#32))))
      (constantI S_ 1 1#1) Facts.reducesTo_S64x30x180_S_d0_1_2 Facts.h_S_ ix0 = 1#1 :=
    (IntOp.andi_eq_one.1 h0).2
  -- an `all` that is 1 had a 1 at every index
  haveI : Subsingleton S_.Idx := ⟨fun a b => funext fun d => d.elim0⟩
  have hel := Host.reduce_andi_all _ _ _ _ ix0 hlast i
  -- at index `i` the two comparisons are of the word `x i` with the broadcast scalars 0 and 11
  have hpair : IntOp.andi (IntOp.cmpi .sge (x i) 0#32) (IntOp.cmpi .slt (x i) 11#32) = 1#1 := hel
  obtain ⟨hge, hlt⟩ := IntOp.andi_eq_one.1 hpair
  exact toNat_lt_of_signed hge hlt

end Cert.Pre_finite_inputs.Range

end
-- ==== Proof.RefValue.lean ====
/-
  The reference, read at one element.

  Row 0 of the result is the class token plus its position embedding (the concatenation's first piece). Row `j ≥ 1`
  is patch `j - 1`: the contraction over the 172800 flattened features `k` of the gathered embedding with the weight
  row, plus the bias, plus the position embedding. Feature `k` is position `k / 768` of the patch and embedding
  feature `k % 768`; the gather reads the table at the row its start index names, read signed and clamped to
  `0 … 10`, the start index being the token word with a negative word wrapped by 11; the two reshapes and the transpose
  in front place position `(p₁, p₂)` of patch `n` of image `b` at image row `15 (n / 12) + p₁`, column
  `15 (n % 12) + p₂`. All index identities are arithmetic on the literal extents.
-/
import proofs.«425871_j35725537968368_3_alg».proof.Proof.Gen.ReferenceIdeal.Run
import proofs.«425871_j35725537968368_3_alg».proof.Proof.Gen.ReferenceIdeal.Read
import proofs.«425871_j35725537968368_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.PatchEmbed

/-- A start index read signed and clamped to the table's rows `0 … 10`. -/
def clampRow (w : BitVec 32) : Fin 11 := ⟨min w.toInt.toNat 10, by omega⟩

/-- The gather of table rows, read at result index `(b, n, p₁, p₂, e)`: the table at the row the start index
    `(b, n, p₁, p₂, 0)` names, read signed and clamped into `0 … 10`, and at feature `e`. -/
theorem gather_rows_apply {α : Type} (x : S11x768.Idx → α) (idx : IVec S64x24x15x15x1 32)
    (b : Fin 64) (n : Fin 24) (p1 p2 : Fin 15) (e : Fin 768) :
    Host.gather gather_S11x768_S64x24x15x15x1_S64x24x15x15x768_4_0_n_n_0_4_1768 x idx (ix5 b n p1 p2 e)
      = x (ix2 (clampRow (idx (ix5 b n p1 p2 (0 : Fin 1)))) e) := by
  unfold Host.gather
  congr 1
  funext a
  refine Fin.ext ?_
  match a with
  | ⟨0, _⟩ =>
    show gather_S11x768_S64x24x15x15x1_S64x24x15x15x768_4_0_n_n_0_4_1768.start (ix5 b n p1 p2 e) idx 0
      + gather_S11x768_S64x24x15x15x1_S64x24x15x15x768_4_0_n_n_0_4_1768.batchCoord (ix5 b n p1 p2 e) 0
      + gather_S11x768_S64x24x15x15x1_S64x24x15x15x768_4_0_n_n_0_4_1768.offCoord (ix5 b n p1 p2 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S11x768_S64x24x15x15x1_S64x24x15x15x768_4_0_n_n_0_4_1768.startIndexMap from List.mem_singleton.mpr rfl)]
    have hsi : gather_S11x768_S64x24x15x15x1_S64x24x15x15x768_4_0_n_n_0_4_1768.siIdx (ix5 b n p1 p2 e)
        ⟨List.idxOf (0 : Fin 2) gather_S11x768_S64x24x15x15x1_S64x24x15x15x768_4_0_n_n_0_4_1768.startIndexMap,
          List.idxOf_lt_length_iff.2 (List.mem_singleton.mpr rfl)⟩ = ix5 b n p1 p2 (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    rw [hsi]
    rfl
  | ⟨1, _⟩ =>
    show gather_S11x768_S64x24x15x15x1_S64x24x15x15x768_4_0_n_n_0_4_1768.start (ix5 b n p1 p2 e) idx 1
      + gather_S11x768_S64x24x15x15x1_S64x24x15x15x768_4_0_n_n_0_4_1768.batchCoord (ix5 b n p1 p2 e) 1
      + gather_S11x768_S64x24x15x15x1_S64x24x15x15x768_4_0_n_n_0_4_1768.offCoord (ix5 b n p1 p2 e) 1 = e.val
    rw [GatherDims.batchCoord_eq_zero _ _ _ List.not_mem_nil]
    unfold GatherDims.start
    rw [dif_neg (show ¬ (1 : Fin 2) ∈ gather_S11x768_S64x24x15x15x1_S64x24x15x15x768_4_0_n_n_0_4_1768.startIndexMap by decide)]
    unfold GatherDims.offCoord
    rw [dif_pos (show (1 : Fin 2) ∈ gather_S11x768_S64x24x15x15x1_S64x24x15x15x768_4_0_n_n_0_4_1768.sKept by decide)]
    simp only [Nat.zero_add, Nat.add_zero]
    rfl

/-! ## The reference's index functions at coordinates -/

/-- The contraction's left index: image `b`, patch `n`, flattened feature `k`. -/
theorem lidx_at (b : Fin 64) (n : Fin 24) (d : Fin 768) (k : Fin 172800) :
    Read.lidx_main_v11 (ix3 b n d) k = ix3 b n k := by
  funext a; match a with | ⟨0, _⟩ => rfl | ⟨1, _⟩ => rfl | ⟨2, _⟩ => rfl

/-- The contraction's right index: weight row `d`, column `k`. -/
theorem ridx_at (b : Fin 64) (n : Fin 24) (d : Fin 768) (k : Fin 172800) :
    Read.ridx_main_v11 (ix3 b n d) k = ix2 d k := by
  funext a; match a with | ⟨0, _⟩ => rfl | ⟨1, _⟩ => rfl

/-- Flattened feature `k` of a patch is position `(k / 11520, k / 768 % 15)` inside the patch and feature `k % 768`. -/
theorem idx10_at (b : Fin 64) (n : Fin 24) (k : Fin 172800) :
    Read.idx_main_v10 (ix3 b n k)
      = ix5 b n (⟨k.val / 11520, by have := k.isLt; omega⟩ : Fin 15) (⟨k.val / 768 % 15, Nat.mod_lt _ (by decide)⟩ : Fin 15)
          (⟨k.val % 768, Nat.mod_lt _ (by decide)⟩ : Fin 768) := by
  have hb := b.isLt; have hn := n.isLt; have hk := k.isLt
  funext a; refine Fin.ext ?_
  match a with
  | ⟨0, _⟩ => show ((b.val * 24 + n.val) * 172800 + k.val) / 4147200 = b.val; omega
  | ⟨1, _⟩ => show ((b.val * 24 + n.val) * 172800 + k.val) / 172800 % 24 = n.val; omega
  | ⟨2, _⟩ => show ((b.val * 24 + n.val) * 172800 + k.val) / 11520 % 15 = k.val / 11520; omega
  | ⟨3, _⟩ => show ((b.val * 24 + n.val) * 172800 + k.val) / 768 % 15 = k.val / 768 % 15; omega
  | ⟨4, _⟩ => show ((b.val * 24 + n.val) * 172800 + k.val) % 768 = k.val % 768; omega

/-- The start indices' trailing unit axis is dropped. -/
theorem idx8_at (b : Fin 64) (n : Fin 24) (p1 p2 : Fin 15) (z : Fin 1) :
    Read.idx_main_v8 (ix5 b n p1 p2 z) = ix4 b n p1 p2 := by
  funext a; match a with | ⟨0, _⟩ => rfl | ⟨1, _⟩ => rfl | ⟨2, _⟩ => rfl | ⟨3, _⟩ => rfl

/-- Patch `n` is patch row `n / 12`, patch column `n % 12`. -/
theorem idx2_at (b : Fin 64) (n : Fin 24) (p1 p2 : Fin 15) :
    Read.idx_main_v2 (ix4 b n p1 p2)
      = ix5 b (⟨n.val / 12, by have := n.isLt; omega⟩ : Fin 2) (⟨n.val % 12, Nat.mod_lt _ (by decide)⟩ : Fin 12) p1 p2 := by
  have hb := b.isLt; have hn := n.isLt; have h1 := p1.isLt; have h2 := p2.isLt
  funext a; refine Fin.ext ?_
  match a with
  | ⟨0, _⟩ => show (((b.val * 24 + n.val) * 15 + p1.val) * 15 + p2.val) / 5400 = b.val; omega
  | ⟨1, _⟩ => show (((b.val * 24 + n.val) * 15 + p1.val) * 15 + p2.val) / 2700 % 2 = n.val / 12; omega
  | ⟨2, _⟩ => show (((b.val * 24 + n.val) * 15 + p1.val) * 15 + p2.val) / 225 % 12 = n.val % 12; omega
  | ⟨3, _⟩ => show (((b.val * 24 + n.val) * 15 + p1.val) * 15 + p2.val) / 15 % 15 = p1.val; omega
  | ⟨4, _⟩ => show (((b.val * 24 + n.val) * 15 + p1.val) * 15 + p2.val) % 15 = p2.val; omega

/-- The transpose swaps the patch column with the row inside the patch. -/
theorem idx1_at (b : Fin 64) (h : Fin 2) (w : Fin 12) (p1 p2 : Fin 15) :
    Read.idx_main_v1 (ix5 b h w p1 p2) = ix5 b h p1 w p2 := by
  funext a; match a with | ⟨0, _⟩ => rfl | ⟨1, _⟩ => rfl | ⟨2, _⟩ => rfl | ⟨3, _⟩ => rfl | ⟨4, _⟩ => rfl

/-- Patch row `h`, row `p₁` inside it, patch column `w`, column `p₂` inside it: image row `15 h + p₁`, column `15 w + p₂`. -/
theorem idx0_at (b : Fin 64) (h : Fin 2) (p1 : Fin 15) (w : Fin 12) (p2 : Fin 15) :
    Read.idx_main_v0 (ix5 b h p1 w p2)
      = ix3 b (⟨h.val * 15 + p1.val, by have := h.isLt; have := p1.isLt; omega⟩ : Fin 30)
          (⟨w.val * 15 + p2.val, by have := w.isLt; have := p2.isLt; omega⟩ : Fin 180) := by
  have hb := b.isLt; have hh := h.isLt; have hw := w.isLt; have h1 := p1.isLt; have h2 := p2.isLt
  funext a; refine Fin.ext ?_
  match a with
  | ⟨0, _⟩ => show ((((b.val * 2 + h.val) * 15 + p1.val) * 12 + w.val) * 15 + p2.val) / 5400 = b.val; omega
  | ⟨1, _⟩ => show ((((b.val * 2 + h.val) * 15 + p1.val) * 12 + w.val) * 15 + p2.val) / 180 % 30 = h.val * 15 + p1.val; omega
  | ⟨2, _⟩ => show ((((b.val * 2 + h.val) * 15 + p1.val) * 12 + w.val) * 15 + p2.val) % 180 = w.val * 15 + p2.val; omega

/-- The image entry the layout operations read for patch `j - 1` of image `b` at position `(k / 11520, k / 768 % 15)` of the
    patch is the token of the flattened row at position `k / 768`. -/
theorem tok_at (b : Fin 64) (j : Fin 25) (hj : ¬ j.val = 0) (k : Fin 172800) :
    Read.idx_main_v0 (Read.idx_main_v1 (Read.idx_main_v2 (Read.idx_main_v8
        (ix5 b (⟨j.val - 1, by have := j.isLt; omega⟩ : Fin 24) (⟨k.val / 11520, by have := k.isLt; omega⟩ : Fin 15)
          (⟨k.val / 768 % 15, Nat.mod_lt _ (by decide)⟩ : Fin 15) (0 : Fin 1)))))
      = tokIdx (rowOf b j) (⟨k.val / 768, by have := k.isLt; omega⟩ : Fin 225) := by
  have hb := b.isLt; have hjl := j.isLt; have hk := k.isLt
  rw [idx8_at, idx2_at, idx1_at, idx0_at]
  unfold tokIdx rowOf
  funext a; refine Fin.ext ?_
  match a with
  | ⟨0, _⟩ => show b.val = (b.val * 24 + (j.val - 1)) / 24; omega
  | ⟨1, _⟩ => show (j.val - 1) / 12 * 15 + k.val / 11520 = (b.val * 24 + (j.val - 1)) % 24 / 12 * 15 + k.val / 768 / 15; omega
  | ⟨2, _⟩ => show (j.val - 1) % 12 * 15 + k.val / 768 % 15 = (b.val * 24 + (j.val - 1)) % 24 % 12 * 15 + k.val / 768 % 15; omega

/-- The bias is read at the feature. -/
theorem bias_at (b : Fin 64) (n : Fin 24) (d : Fin 768) :
    Read.idx_main_v12 (Read.idx_main_v13 (ix3 b n d)) = ix1 d := by
  funext a; match a with | ⟨0, _⟩ => rfl

/-- The position embedding is read at the row and the feature. -/
theorem pos_at (b : Fin 64) (j : Fin 25) (d : Fin 768) :
    Read.idx_main_v17 (ix3 b j d) = ix3 (0 : Fin 1) j d := by
  funext a; match a with | ⟨0, _⟩ => rfl | ⟨1, _⟩ => rfl | ⟨2, _⟩ => rfl

/-- The class token is read at the feature. -/
theorem cls_at (b : Fin 64) (z : Fin 1) (d : Fin 768) :
    Read.idx_main_v15 (ix3 b z d) = ix3 (0 : Fin 1) (0 : Fin 1) d := by
  funext a; match a with | ⟨0, _⟩ => rfl | ⟨1, _⟩ => rfl | ⟨2, _⟩ => rfl

/-! ## The concatenation along the row axis -/

/-- Row `0` of the concatenation is the first piece's only row. -/
theorem concat_row_zero {α : Type} (y1 : S64x1x768.Idx → α) (y2 : S64x24x768.Idx → α)
    (b : Fin 64) (j : Fin 25) (hj : j.val = 0) (d : Fin 768) :
    concatenate S64x25x768 1 [⟨S64x1x768, y1⟩, ⟨S64x24x768, y2⟩] concatenates_S64x1x768_S64x24x768_S64x25x768_d1 (ix3 b j d)
      = y1 (ix3 b (0 : Fin 1) d) :=
  concatenate_pair_apply_left 1 y1 y2 concatenates_S64x1x768_S64x24x768_S64x25x768_d1 (ix3 b j d) rfl (ix3 b (0 : Fin 1) d)
    (fun c => by
      match c with
      | ⟨0, _⟩ => rfl
      | ⟨1, _⟩ => show (0 : Nat) = j.val; omega
      | ⟨2, _⟩ => rfl)

/-- Row `j ≥ 1` of the concatenation is row `j - 1` of the second piece. -/
theorem concat_row_succ {α : Type} (y1 : S64x1x768.Idx → α) (y2 : S64x24x768.Idx → α)
    (b : Fin 64) (j : Fin 25) (hj : ¬ j.val = 0) (d : Fin 768) :
    concatenate S64x25x768 1 [⟨S64x1x768, y1⟩, ⟨S64x24x768, y2⟩] concatenates_S64x1x768_S64x24x768_S64x25x768_d1 (ix3 b j d)
      = y2 (ix3 b (⟨j.val - 1, by have := j.isLt; omega⟩ : Fin 24) d) :=
  concatenate_pair_apply_right 1 y1 y2 concatenates_S64x1x768_S64x24x768_S64x25x768_d1 (ix3 b j d) rfl rfl
    (ix3 b (⟨j.val - 1, by have := j.isLt; omega⟩ : Fin 24) d)
    (fun c hc => by
      match c, hc with
      | ⟨0, _⟩, _ => rfl
      | ⟨1, _⟩, hc => exact absurd rfl hc
      | ⟨2, _⟩, _ => rfl)
    (by show j.val - 1 + 1 = j.val; omega)

/-- The reference's result stage, read at image `b`, row `j`, feature `d`, is `refAt` of the arguments. -/
theorem ref_value (x0 : (⟨S64x30x180, .i32⟩ : BufTy).Contents (Elt Ideal)) (x1 : (⟨S11x768, .f32⟩ : BufTy).Contents (Elt Ideal))
    (x2 : (⟨S768x172800, .f32⟩ : BufTy).Contents (Elt Ideal)) (x3 : (⟨S768, .f32⟩ : BufTy).Contents (Elt Ideal))
    (x4 : (⟨S1x1x768, .f32⟩ : BufTy).Contents (Elt Ideal)) (x5 : (⟨S1x25x768, .f32⟩ : BufTy).Contents (Elt Ideal))
    (b : Fin 64) (j : Fin 25) (d : Fin 768) :
    Read.val_main_v18 (F := Ideal) x0 x1 x2 x3 x4 x5 (ix3 b j d) = refAt x0 x1 x2 x3 x4 x5 b j d := by
  unfold refAt
  by_cases hj : j.val = 0
  · -- row 0: the class token plus its position embedding
    rw [if_pos hj, Read.val_main_v18_apply]
    unfold Read.val_main_v16
    rw [concat_row_zero _ _ b j hj d, Read.val_main_v15_apply, Read.val_main_v17_apply, cls_at, pos_at]
    obtain rfl : j = 0 := Fin.ext hj
    rfl
  · -- row j ≥ 1: the gathered embeddings of patch j - 1 against the weight row, plus bias, plus position embedding
    rw [if_neg hj, Read.val_main_v18_apply]
    unfold Read.val_main_v16
    rw [concat_row_succ _ _ b j hj d, Read.val_main_v14_apply, Read.val_main_v11_apply, Read.val_main_v13_apply,
      Read.val_main_v12_apply, Read.val_main_v17_apply, bias_at, pos_at, Ideal.addf_def, Ideal.addf_def]
    refine congrArg₂ (· + ·) (congrArg₂ (· + ·) (Finset.sum_congr rfl fun k _ => ?_) rfl) rfl
    rw [lidx_at, ridx_at, Read.val_main_v10_apply, idx10_at]
    unfold Read.val_main_v9
    rw [gather_rows_apply, Read.val_main_v8_apply, Read.val_main_v7_apply, Read.val_main_v4_apply, Read.val_main_v6_apply,
      Read.val_main_v3_apply, Read.val_main_v5_apply, Read.val_main_c_apply, Read.val_main_c_0_apply,
      Read.val_main_v2_apply, Read.val_main_v1_apply, Read.val_main_v0_apply, tok_at b j hj k]
    rfl

end Cert.ReferenceIdeal.RefValue

end
-- ==== Proof.HostValue.lean ====
/-
  The kernel's program around its two launches, read as values.

  Before the first launch the host regroups the token image into the patch matrix (row `24 b + n`, column
  `15 p₁ + p₂`) and clamps every word to `0 … 10`; between the launches it lays the bias out as a row and repeats the
  patches' position embedding sixteen times down one row tile; after the second launch it reshapes the projection
  to (image, patch, feature) and puts the class token's row in front. Each of these is a relabelling of indices:
  every lemma below says which entry of which argument a given entry of a host value is. The launches themselves
  enter as two hypotheses — what the first leaves in the folded table, what the second leaves in the projection —
  so that this module depends on neither body.
-/
import proofs.«425871_j35725537968368_3_alg».proof.Proof.Gen.KernelIdeal.Frame
import proofs.«425871_j35725537968368_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384
set_option pp.maxSteps 8000
set_option pp.deepTerms false

noncomputable section

open scoped BigOperators

namespace Cert.KernelIdeal.HostValue

open Idealize.ShloMosaic Idealize.ShloMosaic.TcCoe Idealize.SL.Sem Idealize.ShloMosaic.ValueIdx Idealize.ShloMosaic.StableHlo
open Cert.KernelIdeal Cert.KernelIdeal.Gen Cert.PatchEmbed

variable (m : (ℓ : Loc nD τ sig) → Buf (Elt Ideal) ℓ) (ρ : Dev nD → PrngReg)

/-- A host stretch leaves a buffer it does not write as it found it. -/
macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The arguments as the launches find them -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by host_keeps hostOps0_2
    _ = W1 m ρ c (Proc.devRef .tc main_arg1) := by host_keeps hostOps0_1
    _ = W0 m ρ c (Proc.devRef .tc main_arg1) := by host_keeps hostOps0
    _ = m ((c : Thread nD τ).loc main_arg1) := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps hostOps1
    _ = m ((c : Thread nD τ).loc main_arg4) := W4_arg4 m ρ c
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keeps hostOps1
    _ = m ((c : Thread nD τ).loc main_arg5) := W4_arg5 m ρ c

/-- The second launch finds the folded table as the first launch left it. -/
theorem W5_v5 (c : Dev nD) : W5 m ρ c (Proc.devRef .tc main_v5) = (dat0 (V3 m ρ) c).arrAt 2 cfg0.N :=
  calc W5 m ρ c (Proc.devRef .tc main_v5)
    _ = W4 m ρ c (Proc.devRef .tc main_v5) := by host_keeps hostOps1
    _ = (dat0 (V3 m ρ) c).arrAt 2 cfg0.N := W4_arr m ρ c 2
/-- It finds the patch matrix as the host operations before the first launch made it. -/
theorem W5_v4 (c : Dev nD) : W5 m ρ c (Proc.devRef .tc main_v4) = W3 m ρ c (Proc.devRef .tc main_v4) :=
  calc W5 m ρ c (Proc.devRef .tc main_v4)
    _ = W4 m ρ c (Proc.devRef .tc main_v4) := by host_keeps hostOps1
    _ = W3 m ρ c (Proc.devRef .tc main_v4) := W4_of_ne m ρ c main_v4 (by decide)

/-! ## The host operations around the launches, read at an index -/

/-- The patch matrix: the image regrouped into 15 × 15 patches, every word clamped to `0 … 10`. Row `r`, column `q`
    is the clamped token at `tokIdx r q`. -/
theorem patches_apply (X : (⟨S64x30x180, .i32⟩ : BufTy).Contents (Elt Ideal)) (r : Fin 1536) (q : Fin 225) :
    shapeCast S1536x225
        (minsi (broadcastInDim S64x24x225 ![] bcast_S_S64x24x225 (constantI S_ 32 10#32))
          (maxsi (broadcastInDim S64x24x225 ![] bcast_S_S64x24x225 (constantI S_ 32 0#32))
            (shapeCast S64x24x225
              (transpose S64x2x12x15x15 [0, 1, 3, 2, 4] (shapeCast S64x2x15x12x15 X shapeCasts_S64x30x180_S64x2x15x12x15)
                transposes_S64x2x15x12x15_S64x2x12x15x15_0_1_3_2_4)
              shapeCasts_S64x2x12x15x15_S64x24x225)))
        shapeCasts_S64x24x225_S1536x225 (ix2 r q)
      = clampTok (X (tokIdx r q)) := by
  have hr := r.isLt
  have hq := q.isLt
  rw [shapeCast_apply _ shapeCasts_S64x24x225_S1536x225 (ix2 r q)
    (ix3 (⟨r.val / 24, by omega⟩ : Fin 64) (⟨r.val % 24, by omega⟩ : Fin 24) q)
    (by rw [Shape.rowMajor_val_three, Shape.rowMajor_val_two]
        show (r.val / 24 * 24 + r.val % 24) * 225 + q.val = r.val * 225 + q.val
        omega)]
  show IntOp.minsi 10#32 (IntOp.maxsi 0#32 (shapeCast S64x24x225 _ shapeCasts_S64x2x12x15x15_S64x24x225 _)) = _
  rw [shapeCast_apply _ shapeCasts_S64x2x12x15x15_S64x24x225 _
    (ix5 (⟨r.val / 24, by omega⟩ : Fin 64) (⟨r.val % 24 / 12, by omega⟩ : Fin 2) (⟨r.val % 24 % 12, by omega⟩ : Fin 12)
      (⟨q.val / 15, by omega⟩ : Fin 15) (⟨q.val % 15, by omega⟩ : Fin 15))
    (by rw [Shape.rowMajor_val_five, Shape.rowMajor_val_three]
        show (((r.val / 24 * 2 + r.val % 24 / 12) * 12 + r.val % 24 % 12) * 15 + q.val / 15) * 15 + q.val % 15
          = (r.val / 24 * 24 + r.val % 24) * 225 + q.val
        omega)]
  rw [transpose_apply [0, 1, 3, 2, 4] _ transposes_S64x2x15x12x15_S64x2x12x15x15_0_1_3_2_4 _
    (ix5 (⟨r.val / 24, by omega⟩ : Fin 64) (⟨r.val % 24 / 12, by omega⟩ : Fin 2) (⟨q.val / 15, by omega⟩ : Fin 15)
      (⟨r.val % 24 % 12, by omega⟩ : Fin 12) (⟨q.val % 15, by omega⟩ : Fin 15))
    (fun b => match b with
      | ⟨0, _⟩ => rfl
      | ⟨1, _⟩ => rfl
      | ⟨2, _⟩ => rfl
      | ⟨3, _⟩ => rfl
      | ⟨4, _⟩ => rfl)]
  rw [shapeCast_apply X shapeCasts_S64x30x180_S64x2x15x12x15 _ (tokIdx r q)
    (by rw [Shape.rowMajor_val_three, Shape.rowMajor_val_five]
        show (r.val / 24 * 30 + (r.val % 24 / 12 * 15 + q.val / 15)) * 180 + (r.val % 24 % 12 * 15 + q.val % 15)
          = (((r.val / 24 * 2 + r.val % 24 / 12) * 15 + q.val / 15) * 12 + r.val % 24 % 12) * 15 + q.val % 15
        omega)]
  rfl

/-- The position embedding of the 24 patches repeated 16 times down one row tile: row `p` holds the embedding of
    patch `p % 24`, which is row `1 + p % 24` of the position table (row 0 belongs to the class token). -/
theorem posrep_apply (P : FVec Ideal S1x25x768 .f32) (p : Fin 384) (d : Fin 768) :
    shapeCast S384x768
        (broadcastInDim S16x24x1x768 ![0, 1, 2, 3] bcast_S1x24x1x768_S16x24x1x768_0_1_2_3
          (shapeCast S1x24x1x768
            (shapeCast S24x768 (extractStridedSlice S1x24x768 ![0, 1, 0] P slices_S1x25x768_S1x24x768_0_1_0)
              shapeCasts_S1x24x768_S24x768)
            shapeCasts_S24x768_S1x24x1x768))
        shapeCasts_S16x24x1x768_S384x768 (ix2 p d)
      = P (ix3 (0 : Fin 1) (⟨1 + p.val % 24, by omega⟩ : Fin 25) d) := by
  have hp := p.isLt
  have hd := d.isLt
  rw [shapeCast_apply _ shapeCasts_S16x24x1x768_S384x768 (ix2 p d)
    (ix4 (⟨p.val / 24, by omega⟩ : Fin 16) (⟨p.val % 24, by omega⟩ : Fin 24) (0 : Fin 1) d)
    (by rw [Shape.rowMajor_val_four, Shape.rowMajor_val_two]
        show ((p.val / 24 * 24 + p.val % 24) * 1 + 0) * 768 + d.val = p.val * 768 + d.val
        omega)]
  rw [broadcastInDim_apply _ bcast_S1x24x1x768_S16x24x1x768_0_1_2_3 _ _
    (ix4 (0 : Fin 1) (⟨p.val % 24, by omega⟩ : Fin 24) (0 : Fin 1) d)
    (fun a => match a with
      | ⟨0, _⟩ => by show 0 = if (1 : Nat) = 1 then 0 else _; rw [if_pos rfl]
      | ⟨1, _⟩ => by show p.val % 24 = if (24 : Nat) = 1 then 0 else p.val % 24; rw [if_neg (by decide)]
      | ⟨2, _⟩ => by show 0 = if (1 : Nat) = 1 then 0 else _; rw [if_pos rfl]
      | ⟨3, _⟩ => by show d.val = if (768 : Nat) = 1 then 0 else d.val; rw [if_neg (by decide)])]
  rw [shapeCast_apply _ shapeCasts_S24x768_S1x24x1x768 _ (ix2 (⟨p.val % 24, by omega⟩ : Fin 24) d)
    (by rw [Shape.rowMajor_val_two, Shape.rowMajor_val_four]
        show p.val % 24 * 768 + d.val = ((0 * 24 + p.val % 24) * 1 + 0) * 768 + d.val
        omega)]
  rw [shapeCast_apply _ shapeCasts_S1x24x768_S24x768 _ (ix3 (0 : Fin 1) (⟨p.val % 24, by omega⟩ : Fin 24) d)
    (by rw [Shape.rowMajor_val_three, Shape.rowMajor_val_two]
        show (0 * 24 + p.val % 24) * 768 + d.val = p.val % 24 * 768 + d.val
        omega)]
  exact slice3_axis1_apply 1 P slices_S1x25x768_S1x24x768_0_1_0 (0 : Fin 1) (⟨p.val % 24, by omega⟩ : Fin 24) d
    (⟨1 + p.val % 24, by omega⟩ : Fin 25) rfl

/-- The bias as a one-row matrix. -/
theorem biasrow_apply (B : FVec Ideal S768 .f32) (d : Fin 768) :
    shapeCast S1x768 B shapeCasts_S768_S1x768 (ix2 (0 : Fin 1) d) = B (ix1 d) :=
  shapeCast_apply B shapeCasts_S768_S1x768 _ (ix1 d)
    (by rw [Shape.rowMajor_val_two]
        show ((⟨1, ![768]⟩ : Shape).rowMajor (ix1 d)).val = 0 * 768 + d.val
        rw [Shape.rowMajor_val_one]; show d.val = _; omega)

/-- The result: row 0 of every image is the class token plus its position embedding, rows `1 … 24` the projection
    plus bias plus position embedding, read off the flattened projection at row `24 b + (j - 1)`. -/
theorem result_apply (C : FVec Ideal S1x1x768 .f32) (P : FVec Ideal S1x25x768 .f32)
    (Y : FVec Ideal S1536x768 .f32) (b : Fin 64) (j : Fin 25) (d : Fin 768) :
    (concatenate S64x25x768 1
        [⟨S64x1x768, addf (broadcastInDim S64x1x768 ![0, 1, 2] bcast_S1x1x768_S64x1x768_0_1_2 C)
            (broadcastInDim S64x1x768 ![0, 1, 2] bcast_S1x1x768_S64x1x768_0_1_2
              (extractStridedSlice S1x1x768 ![0, 0, 0] P slices_S1x25x768_S1x1x768_0_0_0))⟩,
          ⟨S64x24x768, shapeCast S64x24x768 Y shapeCasts_S1536x768_S64x24x768⟩]
        concatenates_S64x1x768_S64x24x768_S64x25x768_d1 : FVec Ideal S64x25x768 .f32) (ix3 b j d)
      = if j.val = 0 then C (ix3 (0 : Fin 1) (0 : Fin 1) d) + P (ix3 (0 : Fin 1) (0 : Fin 25) d)
        else Y (ix2 (rowOf b j) d) := by
  have hb := b.isLt
  have hj := j.isLt
  have hd := d.isLt
  by_cases h0 : j.val = 0
  · rw [if_pos h0]
    rw [concatenate_pair_apply_left (t := S64x25x768) (s₁ := S64x1x768) (s₂ := S64x24x768) (1 : Fin 3) _ _
      concatenates_S64x1x768_S64x24x768_S64x25x768_d1 (ix3 b j d) rfl
      (ix3 b (0 : Fin 1) d : S64x1x768.Idx)
      (fun a => match a with
        | ⟨0, _⟩ => rfl
        | ⟨1, _⟩ => by show 0 = j.val; omega
        | ⟨2, _⟩ => rfl)]
    refine (addf_apply _ _ _).trans ?_
    have hk : ∀ a : Fin 3, ((ix3 (0 : Fin 1) (0 : Fin 1) d : S1x1x768.Idx) a).val
        = if S1x1x768.size a = 1 then 0 else ((ix3 b (0 : Fin 1) d : S64x1x768.Idx) ((![0, 1, 2] : Fin 3 → Fin 3) a)).val :=
      fun a => match a with
        | ⟨0, _⟩ => by show 0 = if (1 : Nat) = 1 then 0 else _; rw [if_pos rfl]
        | ⟨1, _⟩ => by show 0 = if (1 : Nat) = 1 then 0 else _; rw [if_pos rfl]
        | ⟨2, _⟩ => by show d.val = if (768 : Nat) = 1 then 0 else d.val; rw [if_neg (by decide)]
    rw [broadcastInDim_apply _ bcast_S1x1x768_S64x1x768_0_1_2 C _ (ix3 (0 : Fin 1) (0 : Fin 1) d) hk,
      broadcastInDim_apply _ bcast_S1x1x768_S64x1x768_0_1_2 _ _ (ix3 (0 : Fin 1) (0 : Fin 1) d) hk]
    congr 1
    exact slice3_axis1_apply 0 P slices_S1x25x768_S1x1x768_0_0_0 (0 : Fin 1) (0 : Fin 1) d (0 : Fin 25) rfl
  · rw [if_neg h0]
    rw [concatenate_pair_apply_right (t := S64x25x768) (s₁ := S64x1x768) (s₂ := S64x24x768) (1 : Fin 3) _ _
      concatenates_S64x1x768_S64x24x768_S64x25x768_d1 (ix3 b j d) rfl rfl
      (ix3 b (⟨j.val - 1, by omega⟩ : Fin 24) d : S64x24x768.Idx)
      (fun a ha => match a, ha with
        | ⟨0, _⟩, _ => rfl
        | ⟨1, _⟩, ha => absurd rfl ha
        | ⟨2, _⟩, _ => rfl)
      (by show j.val - 1 + 1 = j.val; omega)]
    exact shapeCast_apply Y shapeCasts_S1536x768_S64x24x768 _ (ix2 (rowOf b j) d)
      (by rw [Shape.rowMajor_val_two, Shape.rowMajor_val_three]
          show (b.val * 24 + (j.val - 1)) * 768 + d.val = (b.val * 24 + (j.val - 1)) * 768 + d.val
          rfl)

/-! ## What the second launch finds, entry by entry -/

/-- The patch matrix the second launch finds. -/
theorem found_patches (c : Dev nD) (r : Fin 1536) (q : Fin 225) :
    V5 m ρ c main_v4 (ix2 r q) = clampTok (m ((c : Thread nD τ).loc main_arg0) (tokIdx r q)) := by
  have e : W3 m ρ c (Proc.devRef .tc main_v4)
      = shapeCast S1536x225
        (minsi (broadcastInDim S64x24x225 ![] bcast_S_S64x24x225 (constantI S_ 32 10#32))
          (maxsi (broadcastInDim S64x24x225 ![] bcast_S_S64x24x225 (constantI S_ 32 0#32))
            (shapeCast S64x24x225
              (transpose S64x2x12x15x15 [0, 1, 3, 2, 4]
                (shapeCast S64x2x15x12x15 (m ((c : Thread nD τ).loc main_arg0)) shapeCasts_S64x30x180_S64x2x15x12x15)
                transposes_S64x2x15x12x15_S64x2x12x15x15_0_1_3_2_4)
              shapeCasts_S64x2x12x15x15_S64x24x225)))
        shapeCasts_S64x24x225_S1536x225 := by
    show StableHlo.after hostOps0_2 (StableHlo.after hostOps0_1 (StableHlo.after hostOps0 (W0 m ρ c))) (Proc.devRef .tc main_v4) = _
    after_results
    rfl
  show W5 m ρ c (Proc.devRef .tc main_v4) (ix2 r q) = _
  rw [W5_v4, e]
  exact patches_apply _ r q

/-- The bias row it finds. -/
theorem found_bias (c : Dev nD) (d : Fin 768) :
    V5 m ρ c main_v6 (ix2 (0 : Fin 1) d) = m ((c : Thread nD τ).loc main_arg3) (ix1 d) := by
  have e : W5 m ρ c (Proc.devRef .tc main_v6)
      = shapeCast S1x768 (W4 m ρ c (Proc.devRef .tc main_arg3)) shapeCasts_S768_S1x768 := by
    show StableHlo.after hostOps1 (W4 m ρ c) (Proc.devRef .tc main_v6) = _
    after_results
    rfl
  show W5 m ρ c (Proc.devRef .tc main_v6) (ix2 (0 : Fin 1) d) = _
  rw [e, W4_arg3]
  exact biasrow_apply _ d

/-- The repeated position embedding it finds. -/
theorem found_posrep (c : Dev nD) (p : Fin 384) (d : Fin 768) :
    V5 m ρ c main_v11 (ix2 p d)
      = m ((c : Thread nD τ).loc main_arg5) (ix3 (0 : Fin 1) (⟨1 + p.val % 24, by omega⟩ : Fin 25) d) := by
  have e : W5 m ρ c (Proc.devRef .tc main_v11)
      = shapeCast S384x768
        (broadcastInDim S16x24x1x768 ![0, 1, 2, 3] bcast_S1x24x1x768_S16x24x1x768_0_1_2_3
          (shapeCast S1x24x1x768
            (shapeCast S24x768
              (extractStridedSlice S1x24x768 ![0, 1, 0] (W4 m ρ c (Proc.devRef .tc main_arg5)) slices_S1x25x768_S1x24x768_0_1_0)
              shapeCasts_S1x24x768_S24x768)
            shapeCasts_S24x768_S1x24x1x768))
        shapeCasts_S16x24x1x768_S384x768 := by
    show StableHlo.after hostOps1 (W4 m ρ c) (Proc.devRef .tc main_v11) = _
    after_results
    rfl
  show W5 m ρ c (Proc.devRef .tc main_v11) (ix2 p d) = _
  rw [e, W4_arg5]
  exact posrep_apply _ p d

/-! ## The result array after the run -/

variable (hfold : ∀ (V : (c : Dev nD) → (b : Ref sig .tc) → Buf (Elt Ideal) ((c : Thread nD τ).loc b)) (c : Dev nD)
    (q : Fin 225) (v : Fin 11) (d : Fin 768),
    (dat0 (F := Ideal) V c).arrAt 2 cfg0.N (ix3 q v d) = wcomb (V c main_arg1) (V c main_arg2) q v d)
  (hproj : ∀ (V : (c : Dev nD) → (b : Ref sig .tc) → Buf (Elt Ideal) ((c : Thread nD τ).loc b)) (c : Dev nD)
    (r : Fin 1536) (d : Fin 768),
    (dat1 (F := Ideal) V c).arrAt 4 cfg1.N (ix2 r d) = projAt (V c main_v4) (V c main_v5) (V c main_v6) (V c main_v11) r d)
include hfold hproj

/-- The folded table the second launch finds is `wcomb` of the embedding table and the weight as launched. -/
theorem found_table (c : Dev nD) (q : Fin 225) (v : Fin 11) (d : Fin 768) :
    V5 m ρ c main_v5 (ix3 q v d)
      = wcomb (m ((c : Thread nD τ).loc main_arg1)) (m ((c : Thread nD τ).loc main_arg2)) q v d := by
  show W5 m ρ c (Proc.devRef .tc main_v5) (ix3 q v d) = _
  rw [W5_v5, hfold (V3 m ρ) c q v d]
  rw [show V3 m ρ c main_arg1 = m ((c : Thread nD τ).loc main_arg1) from W3_arg1 m ρ c,
    show V3 m ρ c main_arg2 = m ((c : Thread nD τ).loc main_arg2) from W3_arg2 m ρ c]

/-- THE KERNEL'S VALUE: after the run the result array holds `kerAt` of the arguments as launched. -/
theorem kernel_value (c : Dev nD) (b : Fin 64) (j : Fin 25) (d : Fin 768) :
    W7 m ρ c (Proc.devRef .tc main_v18) (ix3 b j d)
      = kerAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b j d := by
  have e18 : W7 m ρ c (Proc.devRef .tc main_v18)
      = (concatenate S64x25x768 1
          [⟨S64x1x768, addf (broadcastInDim S64x1x768 ![0, 1, 2] bcast_S1x1x768_S64x1x768_0_1_2 (W6 m ρ c (Proc.devRef .tc main_arg4)))
              (broadcastInDim S64x1x768 ![0, 1, 2] bcast_S1x1x768_S64x1x768_0_1_2
                (extractStridedSlice S1x1x768 ![0, 0, 0] (W6 m ρ c (Proc.devRef .tc main_arg5)) slices_S1x25x768_S1x1x768_0_0_0))⟩,
            ⟨S64x24x768, shapeCast S64x24x768 (W6 m ρ c (Proc.devRef .tc main_v12)) shapeCasts_S1536x768_S64x24x768⟩]
          concatenates_S64x1x768_S64x24x768_S64x25x768_d1 : FVec Ideal S64x25x768 .f32) := by
    show StableHlo.after hostOps2 (W6 m ρ c) (Proc.devRef .tc main_v18) = _
    after_results
    rfl
  rw [e18, result_apply, W6_arg4, W6_arg5]
  unfold kerAt
  by_cases h0 : j.val = 0
  · rw [if_pos h0, if_pos h0]
  · rw [if_neg h0, if_neg h0]
    rw [show W6 m ρ c (Proc.devRef .tc main_v12) = (dat1 (V5 m ρ) c).arrAt 4 cfg1.N from W6_arr m ρ c 4]
    rw [hproj (V5 m ρ) c (rowOf b j) d]
    unfold projAt
    have hj := j.isLt
    have hb := b.isLt
    have ej : (⟨1 + (⟨(rowOf b j).val % 384, Nat.mod_lt _ (by decide)⟩ : Fin 384).val % 24, by omega⟩ : Fin 25) = j :=
      Fin.ext (by show 1 + (b.val * 24 + (j.val - 1)) % 384 % 24 = j.val; omega)
    refine congrArg₂ (· + ·) (congrArg₂ (· + ·)
      (Finset.sum_congr rfl fun v _ => Finset.sum_congr rfl fun q _ => ?_) (found_bias m ρ c d)) ?_
    · rw [found_patches m ρ c, found_table m ρ hfold hproj c]
    · rw [found_posrep m ρ c, ej]

end Cert.KernelIdeal.HostValue

end
-- ==== Proof.FoldValue.lean ====
import proofs.«425871_j35725537968368_3_alg».proof.Proof.Gen.KernelIdeal.Frame
import proofs.«425871_j35725537968368_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.FoldValue

open Idealize.ShloMosaic Idealize.ShloMosaic.TcCoe Idealize.SL.Sem Idealize.ShloMosaic.ValueIdx
open Cert.KernelIdeal Cert.KernelIdeal.Gen Cert.PatchEmbed

variable (V : (c : Dev nD) → (b : Ref sig .tc) → Buf (Elt Ideal) ((c : Thread nD τ).loc b))

/-! # The first launch's result, entry by entry

The first launch runs over 45 grid points. Point t reads the whole embedding table E [11,768] and columns
3840 t … 3840 t + 3839 of the weight W [768,172800], and writes rows 5 t … 5 t + 4 of the folded table [225,11,768].
Its j-th store (j < 5) is the dot of E with the 768-column slab j of the block, contracted over the 768 features, into
a zero accumulator: at (v, d) it is  ∑ e, E v e · W d (3840 t + 768 j + e). Since 3840 t + 768 j = 768 (5 t + j), row
q = 5 t + j of the folded table is  ∑ e, E v e · W d (768 q + e), the specification's folded table. The narrowing of
both operands to bf16 is the identity at the ideal values. Row q lies in the block of the point q / 5,
and every point writes its block back, so the array ends holding that function at every index. -/

/-! ## The product of the table with one 768-column slab of the weight, entry by entry

The body's dot contracts axis 1 of the table (its 768 features) with axis 1 of the slab (the slab's 768 columns):
output axis 0 is the table's row v, output axis 1 is the slab's row d. -/

/-- The left operand's row is the output's row. -/
theorem lhs_fold_0 (i : S11x768.Idx) (k : dot_S11x768_S768x768_S11x768_1_1_0_0_n_n.contr.Idx) :
    (dot_S11x768_S768x768_S11x768_1_1_0_0_n_n.lhsIdx i k 0).val = (i 0).val := by
  unfold DotDims.lhsIdx
  rw [dif_neg (show ¬(0 : Fin S11x768.rank) ∈ dot_S11x768_S768x768_S11x768_1_1_0_0_n_n.lhsBatch by decide), dif_pos (show (0 : Fin S11x768.rank) ∈ dot_S11x768_S768x768_S11x768_1_1_0_0_n_n.lhsNonContracting by decide)]
  rfl
/-- The left operand's column is the contracted position. -/
theorem lhs_fold_1 (i : S11x768.Idx) (k : dot_S11x768_S768x768_S11x768_1_1_0_0_n_n.contr.Idx) :
    (dot_S11x768_S768x768_S11x768_1_1_0_0_n_n.lhsIdx i k 1).val = (k ⟨0, by decide⟩).val :=
  dot_S11x768_S768x768_S11x768_1_1_0_0_n_n.lhsIdx_val_of_single rfl i k
/-- The right operand's row is the output's column. -/
theorem rhs_fold_0 (i : S11x768.Idx) (k : dot_S11x768_S768x768_S11x768_1_1_0_0_n_n.contr.Idx) :
    (dot_S11x768_S768x768_S11x768_1_1_0_0_n_n.rhsIdx i k 0).val = (i 1).val := by
  unfold DotDims.rhsIdx
  rw [dif_neg (show ¬(0 : Fin S768x768.rank) ∈ dot_S11x768_S768x768_S11x768_1_1_0_0_n_n.rhsBatch by decide), dif_pos (show (0 : Fin S768x768.rank) ∈ dot_S11x768_S768x768_S11x768_1_1_0_0_n_n.rhsNonContracting by decide)]
  rfl
/-- The right operand's column is the contracted position. -/
theorem rhs_fold_1 (i : S11x768.Idx) (k : dot_S11x768_S768x768_S11x768_1_1_0_0_n_n.contr.Idx) :
    (dot_S11x768_S768x768_S11x768_1_1_0_0_n_n.rhsIdx i k 1).val = (k ⟨0, by decide⟩).val :=
  dot_S11x768_S768x768_S11x768_1_1_0_0_n_n.rhsIdx_val_of_single rfl i k

/-- The dot into a zero accumulator, at row v and column d: the table's row v against the slab's row d. -/
theorem dot_fold_apply {φ₁ φ₂ : FTy} (a : FVec Ideal S11x768 φ₁) (b : FVec Ideal S768x768 φ₂) (v : Fin 11) (d : Fin 768) :
    matmul (F := Ideal) dot_S11x768_S768x768_S11x768_1_1_0_0_n_n none a b (constant (F := Ideal) S11x768 .f32 0x00000000#32) (ix2 v d)
      = ∑ e : Fin 768, a (ix2 v e) * b (ix2 d e) := by
  simp only [matmul]
  rw [Ideal.matmul_constant_zero_apply, ← Equiv.sum_comp (contrEquiv1 dot_S11x768_S768x768_S11x768_1_1_0_0_n_n 768 rfl rfl).symm]
  refine Finset.sum_congr rfl fun e _ => ?_
  have he := contrEquiv1_symm_val dot_S11x768_S768x768_S11x768_1_1_0_0_n_n 768 rfl rfl e
  have el : dot_S11x768_S768x768_S11x768_1_1_0_0_n_n.lhsIdx (ix2 v d) ((contrEquiv1 dot_S11x768_S768x768_S11x768_1_1_0_0_n_n 768 rfl rfl).symm e) = ix2 v e := funext fun x => Fin.ext (by
    match x with
    | ⟨0, _⟩ => exact lhs_fold_0 _ _
    | ⟨1, _⟩ => exact (lhs_fold_1 _ _).trans he)
  have er : dot_S11x768_S768x768_S11x768_1_1_0_0_n_n.rhsIdx (ix2 v d) ((contrEquiv1 dot_S11x768_S768x768_S11x768_1_1_0_0_n_n 768 rfl rfl).symm e) = ix2 d e := funext fun x => Fin.ext (by
    match x with
    | ⟨0, _⟩ => exact rhs_fold_0 _ _
    | ⟨1, _⟩ => exact (rhs_fold_1 _ _).trans he)
  rw [el, er]

/-- A [11,768] value stored as a [1,11,768] block keeps its entries. -/
theorem cast_block_apply {α : Type} (x : S11x768.Idx → α) (u : Fin 1) (v : Fin 11) (d : Fin 768) :
    shapeCast S1x11x768 x shapeCasts_S11x768_S1x11x768 (ix3 u v d) = x (ix2 v d) := by
  refine shapeCast_apply x shapeCasts_S11x768_S1x11x768 (ix3 u v d) (ix2 v d) ?_
  rw [Shape.rowMajor_val_two, Shape.rowMajor_val_three]
  have hu : u.val = 0 := by have := u.isLt; omega
  show v.val * 768 + d.val = (u.val * 11 + v.val) * 768 + d.val
  rw [hu]; omega

/-! ## What each of the body's five stores holds

Every store is the table (narrowed to bf16, which changes nothing at the ideal values) times one slab of the
weight's block (narrowed likewise) into a zero accumulator, stored as a [1,11,768] block. -/

/-- The store whose table operand was narrowed beforehand. -/
theorem pay_last_apply (x : FVec Ideal S11x768 .bf16) (w : Vec Ideal S768x768 .f32) (u : Fin 1) (v : Fin 11) (d : Fin 768) :
    k0_pay1 (F := Ideal) x w (ix3 u v d) = ∑ e : Fin 768, x (ix2 v e) * w (ix2 d e) := by
  unfold k0_pay1
  rw [cast_block_apply, dot_fold_apply]
  refine Finset.sum_congr rfl fun e _ => ?_
  rw [truncf_apply]

/-- Narrowing the table keeps its entries. -/
theorem narrowed_apply (x : Vec Ideal S11x768 .f32) (i : S11x768.Idx) : k0_pay2 (F := Ideal) x i = x i := rfl

theorem pay_a_apply (x : Vec Ideal S11x768 .f32) (w : Vec Ideal S768x768 .f32) (u : Fin 1) (v : Fin 11) (d : Fin 768) :
    k0_pay3 (F := Ideal) x w (ix3 u v d) = ∑ e : Fin 768, x (ix2 v e) * w (ix2 d e) := by
  unfold k0_pay3
  rw [cast_block_apply, dot_fold_apply]
  refine Finset.sum_congr rfl fun e _ => ?_
  rw [truncf_apply, narrowed_apply]
theorem pay_b_apply (x : Vec Ideal S11x768 .f32) (w : Vec Ideal S768x768 .f32) (u : Fin 1) (v : Fin 11) (d : Fin 768) :
    k0_pay4 (F := Ideal) x w (ix3 u v d) = ∑ e : Fin 768, x (ix2 v e) * w (ix2 d e) := by
  unfold k0_pay4
  rw [cast_block_apply, dot_fold_apply]
  refine Finset.sum_congr rfl fun e _ => ?_
  rw [truncf_apply, narrowed_apply]
theorem pay_c_apply (x : Vec Ideal S11x768 .f32) (w : Vec Ideal S768x768 .f32) (u : Fin 1) (v : Fin 11) (d : Fin 768) :
    k0_pay5 (F := Ideal) x w (ix3 u v d) = ∑ e : Fin 768, x (ix2 v e) * w (ix2 d e) := by
  unfold k0_pay5
  rw [cast_block_apply, dot_fold_apply]
  refine Finset.sum_congr rfl fun e _ => ?_
  rw [truncf_apply, narrowed_apply]
theorem pay_d_apply (x : Vec Ideal S11x768 .f32) (w : Vec Ideal S768x768 .f32) (u : Fin 1) (v : Fin 11) (d : Fin 768) :
    k0_pay6 (F := Ideal) x w (ix3 u v d) = ∑ e : Fin 768, x (ix2 v e) * w (ix2 d e) := by
  unfold k0_pay6
  rw [cast_block_apply, dot_fold_apply]
  refine Finset.sum_congr rfl fun e _ => ?_
  rw [truncf_apply, narrowed_apply]

/-! ## One grid point's result block as one function of the blocks it read

Slab j of the weight's block is its columns j·768 … j·768 + 767; store j writes row j of the result block. -/

/-- Column e of slab j of the weight's block. -/
def slabCol (j : Fin 5) (e : Fin 768) : Fin 3840 := ⟨j.val * 768 + e.val, by have := j.isLt; have := e.isLt; omega⟩

/-- The result block from the table and the weight's block: at (j, v, d), the table's row v against row d of slab j. -/
def foldBlock (x0 : S11x768.Idx → EReal) (x1 : S768x3840.Idx → EReal) : S5x11x768.Idx → EReal :=
  fun y => ∑ e : Fin 768, x0 (ix2 (y 1) e) * x1 (ix2 (y 2) (slabCol (y 0) e))

theorem foldBlock_apply (x0 : S11x768.Idx → EReal) (x1 : S768x3840.Idx → EReal) (j : Fin 5) (v : Fin 11) (d : Fin 768) :
    foldBlock x0 x1 (ix3 j v d) = ∑ e : Fin 768, x0 (ix2 v e) * x1 (ix2 d (slabCol j e)) := rfl

theorem zero_off2 : (![0, 0] : Fin 2 → Nat) = fun _ => 0 := funext fun a => by fin_cases a <;> rfl

/-- The slab read at column offset c = j·768 is slab j. -/
theorem ld_slab_apply (x1 : Vec Ideal S768x3840 .f32) (c : Nat) (j : Fin 5) (hc : c = j.val * 768)
    (inb : ∀ a, (![0, c] : Fin 2 → Nat) a + S768x768.size a ≤ S768x3840.size a) (d e : Fin 768) :
    View.ld x1 (Rect.unit (s := S768x3840) ![0, c] S768x768.size inb) (ix2 d e) = x1 (ix2 d (slabCol j e)) := by
  show x1 ((Rect.unit (s := S768x3840) ![0, c] S768x768.size inb).emb (ix2 d e)) = _
  congr 1
  funext a
  apply Fin.ext
  match a with
  | ⟨0, _⟩ => rw [Rect.emb_apply]; show 0 + 1 * d.val = d.val; omega
  | ⟨1, _⟩ => rw [Rect.emb_apply]; show c + 1 * e.val = j.val * 768 + e.val; omega

/-- The store at row offset o = j lands on row j of the result block. -/
theorem emb_row_apply (o : Nat) (j : Fin 5) (ho : o = j.val)
    (inb : ∀ a, (![o, 0, 0] : Fin 3 → Nat) a + S1x11x768.size a ≤ S5x11x768.size a) (u : Fin 1) (v : Fin 11) (d : Fin 768) :
    (Rect.unit (s := S5x11x768) ![o, 0, 0] S1x11x768.size inb).emb (ix3 u v d) = ix3 j v d := by
  have hu : u.val = 0 := by have := u.isLt; omega
  funext a
  apply Fin.ext
  match a with
  | ⟨0, _⟩ => rw [Rect.emb_apply]; show o + 1 * u.val = j.val; omega
  | ⟨1, _⟩ => rw [Rect.emb_apply]; show 0 + 1 * v.val = v.val; omega
  | ⟨2, _⟩ => rw [Rect.emb_apply]; show 0 + 1 * d.val = d.val; omega

/-- Any of the five stores, whose payload is the table against a slab, agrees with the block function on its row. -/
theorem piece_apply (x0 : Vec Ideal S11x768 .f32) (x1 : Vec Ideal S768x3840 .f32) (o c : Nat) (j : Fin 5) (ho : o = j.val) (hc : c = j.val * 768)
    (inbO : ∀ a, (![o, 0, 0] : Fin 3 → Nat) a + S1x11x768.size a ≤ S5x11x768.size a)
    (inbC : ∀ a, (![0, c] : Fin 2 → Nat) a + S768x768.size a ≤ S768x3840.size a)
    (pay : Vec Ideal S11x768 .f32 → Vec Ideal S768x768 .f32 → FVec Ideal S1x11x768 .f32)
    (hpay : ∀ (x : Vec Ideal S11x768 .f32) (w : Vec Ideal S768x768 .f32) (u : Fin 1) (v : Fin 11) (d : Fin 768),
      pay x w (ix3 u v d) = ∑ e : Fin 768, x (ix2 v e) * w (ix2 d e))
    (x : S1x11x768.Idx) :
    pay (View.ld x0 r0_0) (View.ld x1 (Rect.unit (s := S768x3840) ![0, c] S768x768.size inbC)) x
      = foldBlock x0 x1 ((Rect.unit (s := S5x11x768) ![o, 0, 0] S1x11x768.size inbO).emb x) := by
  obtain ⟨u, v, d, rfl⟩ : ∃ (u : Fin 1) (v : Fin 11) (d : Fin 768), x = ix3 u v d := ⟨x 0, x 1, x 2, eq_ix3 x⟩
  rw [hpay, emb_row_apply o j ho inbO, foldBlock_apply, View.ld_unit_zero (S := S11x768) zero_off2]
  refine Finset.sum_congr rfl fun e _ => ?_
  rw [ld_slab_apply x1 c j hc inbC]

/-- What the body leaves in the result's staging buffer is the block function of the two blocks it read. -/
theorem out_eq_foldBlock (x0 : Vec Ideal S11x768 .f32) (x1 : Vec Ideal S768x3840 .f32) :
    out0_2 (F := Ideal) x0 x1 = foldBlock x0 x1 := by
  funext y
  unfold out0_2
  refine View.canon_apply_of_pieces (Val := Elt Ideal) (S := S5x11x768) (e := .f32) (foldBlock x0 x1) _ ?_ y (cover0_2 _ _ _ _ _ y)
  intro p hp x
  simp only [List.mem_cons, List.not_mem_nil, or_false] at hp
  rcases hp with rfl | rfl | rfl | rfl | rfl
  · exact piece_apply x0 x1 4 3072 4 rfl rfl inb_S5x11x768_S1x11x768_4_0_0 inb_S768x3840_S768x768_0_3072 (fun x w => k0_pay1 (F := Ideal) (k0_pay2 x) w)
      (fun x w u v d => by rw [pay_last_apply]; rfl) x
  · exact piece_apply x0 x1 3 2304 3 rfl rfl inb_S5x11x768_S1x11x768_3_0_0 inb_S768x3840_S768x768_0_2304 (k0_pay6 (F := Ideal)) pay_d_apply x
  · exact piece_apply x0 x1 2 1536 2 rfl rfl inb_S5x11x768_S1x11x768_2_0_0 inb_S768x3840_S768x768_0_1536 (k0_pay5 (F := Ideal)) pay_c_apply x
  · exact piece_apply x0 x1 1 768 1 rfl rfl inb_S5x11x768_S1x11x768_1_0_0 inb_S768x3840_S768x768_0_768 (k0_pay4 (F := Ideal)) pay_b_apply x
  · exact piece_apply x0 x1 0 0 0 rfl rfl inb_S5x11x768_S1x11x768_0_0_0 inb_S768x3840_S768x768_0_0 (k0_pay3 (F := Ideal)) pay_a_apply x

/-! ## From the blocks to the arrays

The table is one block at every point. At point t the weight's block is columns 3840 t … 3840 t + 3839 and the
result's block is rows 5 t … 5 t + 4 of the folded table. So row 5 t + j of the folded table is built from columns
3840 t + 768 j + e = 768 (5 t + j) + e of the weight: the columns of position 5 t + j. -/

/-- The windows' block indices, decided over the 45 points. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 3) = t.val ∧ win0_2.index t (1 : Fin 3) = 0 ∧ win0_2.index t (2 : Fin 3) = 0 :=
  (by decide +kernel : ∀ t : Fin grid0.N, _)

/-- The folded table as one function of the embedding table and the weight. -/
def foldAll (E : S11x768.Idx → EReal) (W : S768x172800.Idx → EReal) : S225x11x768.Idx → EReal :=
  fun i => wcomb E W (i 0) (i 1) (i 2)

theorem foldAll_apply (E : S11x768.Idx → EReal) (W : S768x172800.Idx → EReal) (q : Fin 225) (v : Fin 11) (d : Fin 768) :
    foldAll E W (ix3 q v d) = wcomb E W q v d := rfl

/-- The block function of blocks that are the table and columns 3840 t … of the weight is rows 5 t … of the folded
    table: (5 t + j) · 768 + e = 3840 t + (768 j + e). -/
theorem foldBlock_eq_wcomb (E : S11x768.Idx → EReal) (W : S768x172800.Idx → EReal) (x0 : S11x768.Idx → EReal) (x1 : S768x3840.Idx → EReal)
    (t : Nat) (h0 : ∀ x : S11x768.Idx, x0 x = E x)
    (h1 : ∀ (x : S768x3840.Idx) (k : S768x172800.Idx), (k 0).val = (x 0).val → (k 1).val = t * 3840 + (x 1).val → x1 x = W k)
    (j : Fin 5) (v : Fin 11) (d : Fin 768) (q : Fin 225) (hq : q.val = t * 5 + j.val) :
    foldBlock x0 x1 (ix3 j v d) = wcomb E W q v d := by
  rw [foldBlock_apply]
  unfold wcomb
  refine Finset.sum_congr rfl fun e _ => ?_
  rw [h0, h1 (ix2 d (slabCol j e)) (ix2 d (wcol q e)) rfl (by show q.val * 768 + e.val = t * 3840 + (j.val * 768 + e.val); omega)]

/-- The table's block at any point is the table. -/
theorem table_block_apply (c : Dev nD) (t : Fin cfg0.N) (x : S11x768.Idx) :
    (iblk0 (F := Ideal) V c 0 t : Vec Ideal S11x768 .f32) x = (V c main_arg1 : S11x768.Idx → EReal) x := by
  obtain ⟨h0, h1, -⟩ := idx_facts t
  unfold iblk0
  rw [View.read_apply]
  show V c main_arg1 _ = V c main_arg1 _
  congr 1
  funext a
  apply Fin.ext
  match a with
  | ⟨0, _⟩ => show win0_0.index t (0 : Fin 2) * 11 + 1 * (x 0).val = (x 0).val; rw [h0]; omega
  | ⟨1, _⟩ => show win0_0.index t (1 : Fin 2) * 768 + 1 * (x 1).val = (x 1).val; rw [h1]; omega

/-- The weight's block at point t is its columns 3840 t …. -/
theorem weight_block_apply (c : Dev nD) (t : Fin cfg0.N) (x : S768x3840.Idx) (k : S768x172800.Idx)
    (hk0 : (k 0).val = (x 0).val) (hk1 : (k 1).val = t.val * 3840 + (x 1).val) :
    (iblk0 (F := Ideal) V c 1 t : Vec Ideal S768x3840 .f32) x = (V c main_arg2 : S768x172800.Idx → EReal) k := by
  obtain ⟨-, -, h0, h1, -⟩ := idx_facts t
  unfold iblk0
  rw [View.read_apply]
  show V c main_arg2 _ = V c main_arg2 _
  congr 1
  funext a
  apply Fin.ext
  match a with
  | ⟨0, _⟩ => show win0_1.index t (0 : Fin 2) * 768 + 1 * (x 0).val = (k 0).val; rw [h0, hk0]; omega
  | ⟨1, _⟩ => show win0_1.index t (1 : Fin 2) * 3840 + 1 * (x 1).val = (k 1).val; rw [h1, hk1]; omega

/-- WHAT POINT t WRITES BACK is block t of the folded table of the arrays as the launch found them. -/
theorem flushed_eq (c : Dev nD) (t : Fin cfg0.N) :
    (dat0 (F := Ideal) V c).flushed 2 t
      = ((cfg0.win 2).blk t).view.read (Elt Ideal) (foldAll (V c main_arg1) (V c main_arg2)) := by
  show (cfg0.win 2).cut (grid0.coords t) ((dat0 (F := Ideal) V c).after 2 t) = _
  rw [after0_2, out_eq_foldBlock]
  obtain ⟨-, -, -, -, h0, h1, h2⟩ := idx_facts t
  have hN : cfg0.N = 45 := N_0
  have ht : t.val < 45 := by have := t.isLt; omega
  funext y
  rw [View.read_apply]
  obtain ⟨j, v, d, rfl⟩ : ∃ (j : Fin 5) (v : Fin 11) (d : Fin 768), y = ix3 j v d := ⟨y 0, y 1, y 2, eq_ix3 y⟩
  have hemb : ((cfg0.win 2).blk t).view.emb (ix3 j v d)
      = ix3 (⟨t.val * 5 + j.val, by have := j.isLt; omega⟩ : Fin 225) v d := by
    funext a
    apply Fin.ext
    match a with
    | ⟨0, _⟩ => show win0_2.index t (0 : Fin 3) * 5 + 1 * j.val = t.val * 5 + j.val; rw [h0]; omega
    | ⟨1, _⟩ => show win0_2.index t (1 : Fin 3) * 11 + 1 * v.val = v.val; rw [h1]; omega
    | ⟨2, _⟩ => show win0_2.index t (2 : Fin 3) * 768 + 1 * d.val = d.val; rw [h2]; omega
  rw [hemb]
  show foldBlock (iblk0 (F := Ideal) V c 0 t) (iblk0 (F := Ideal) V c 1 t) (ix3 j v d) = _
  exact foldBlock_eq_wcomb (V c main_arg1) (V c main_arg2) (iblk0 (F := Ideal) V c 0 t) (iblk0 (F := Ideal) V c 1 t) t.val
    (table_block_apply V c t) (weight_block_apply V c t) j v d _ rfl

/-- An index of the folded table is in point t's block iff each coordinate is in the block's range on its axis. -/
theorem mem_blk (t : Fin cfg0.N) (i : S225x11x768.Idx) :
    i ∈ ((cfg0.win 2).blk t).view.set
      ↔ ∀ a : Fin 3, win0_2.index t a * S5x11x768.size a ≤ (i a).val ∧ (i a).val < win0_2.index t a * S5x11x768.size a + S5x11x768.size a := by
  show i ∈ ((View.whole main_v5).slice (win0_2.rect t)).set ↔ _
  rw [View.set_slice_whole, Rect.mem_set_unit]
  exact Iff.rfl

/-- After the first launch the folded table's array holds `wcomb` of the embedding table and the weight as the
    launch found them. -/
theorem fold_value (c : Dev nD) (q : Fin 225) (v : Fin 11) (d : Fin 768) :
    (dat0 (F := Ideal) V c).arrAt 2 cfg0.N (ix3 q v d) = wcomb (V c main_arg1) (V c main_arg2) q v d := by
  have hN : cfg0.N = 45 := N_0
  have hq : q.val < 225 := q.isLt
  have hv : v.val < 11 := v.isLt
  have hd : d.val < 768 := d.isLt
  -- row q is in the block of point q / 5
  obtain ⟨t, ht⟩ : ∃ t : Fin cfg0.N, t.val = q.val / 5 := ⟨⟨q.val / 5, by omega⟩, rfl⟩
  have hmem : (ix3 q v d : S225x11x768.Idx) ∈ ((cfg0.win 2).blk t).view.set := by
    rw [mem_blk]
    obtain ⟨-, -, -, -, h0, h1, h2⟩ := idx_facts t
    intro a
    match a with
    | ⟨0, _⟩ =>
      show win0_2.index t (0 : Fin 3) * 5 ≤ q.val ∧ q.val < win0_2.index t (0 : Fin 3) * 5 + 5
      rw [h0, ht]; omega
    | ⟨1, _⟩ =>
      show win0_2.index t (1 : Fin 3) * 11 ≤ v.val ∧ v.val < win0_2.index t (1 : Fin 3) * 11 + 11
      rw [h1]; omega
    | ⟨2, _⟩ =>
      show win0_2.index t (2 : Fin 3) * 768 ≤ d.val ∧ d.val < win0_2.index t (2 : Fin 3) * 768 + 768
      rw [h2]; omega
  exact (dat0 (F := Ideal) V c).arrAt_apply_of_mem 2 (foldAll (V c main_arg1) (V c main_arg2))
    (fun t _ => flushed_eq V c t) cfg0.N t (ix3 q v d) t.isLt (flush0_2 t) hmem

end Cert.KernelIdeal.FoldValue

end
-- ==== Proof.ProjValue.lean ====
/-
  The second launch, read as a value.

  Entry (r, d) of the projection lies in the block of grid point t = r / 384, at local row r % 384. The body stores one
  whole block: eleven products added one after another onto zero, then the bias row spread over the rows, then the
  block of the repeated position embedding. Product v multiplies the indicator "the patch word equals v" (a compare,
  the bit widened, converted: 1 or 0 on the extended reals) with the slice of the folded table at token value v, so at
  (row, feature) it is the sum over the 225 positions of indicator times table entry. Eleven terms added from the left
  onto zero are their sum over the token values. The patch block at point t is rows 384 t … 384 t + 383 of the patch
  matrix; the table, the bias row and the repeated position embedding are whole blocks. Every index of the result lies
  in the block of its point, and every point writes its block back.
-/
import proofs.«425871_j35725537968368_3_alg».proof.Proof.Gen.KernelIdeal.Frame
import proofs.«425871_j35725537968368_3_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

open scoped BigOperators

namespace Cert.KernelIdeal.ProjValue

open Idealize.ShloMosaic Idealize.ShloMosaic.TcCoe Idealize.SL.Sem Idealize.ShloMosaic.ValueIdx
open Cert.KernelIdeal Cert.KernelIdeal.Gen Cert.PatchEmbed

/-- The indicator the body builds from a word: compare, widen the bit, convert. -/
theorem hot_scalar (a : BitVec 32) (v : Nat) :
    (FloatOps.sitofp (F := Ideal) .f32 ((IntOp.cmpi .eq a (BitVec.ofNat 32 v)).setWidth 32) : EReal) = hot a v := by
  unfold hot
  by_cases h : a = BitVec.ofNat 32 v
  · rw [if_pos h, (StableHlo.Predicate.cmpi_eq_iff).mpr h]
    show ((((1#1 : BitVec 1).setWidth 32).toInt : ℝ) : EReal) = 1
    rw [show ((1#1 : BitVec 1).setWidth 32).toInt = 1 from by decide, Int.cast_one, EReal.coe_one]
  · rw [if_neg h, eq_zero_of_ne_one (fun e => h ((StableHlo.Predicate.cmpi_eq_iff).mp e))]
    show ((((0#1 : BitVec 1).setWidth 32).toInt : ℝ) : EReal) = 0
    rw [show ((0#1 : BitVec 1).setWidth 32).toInt = 0 from by decide, Int.cast_zero, EReal.coe_zero]

theorem lhs_D_0 (i : S384x768.Idx) (q : dot_S384x225_S225x768_S384x768_1_0_0_1_n_n.contr.Idx) :
    (dot_S384x225_S225x768_S384x768_1_0_0_1_n_n.lhsIdx i q 0).val = (i 0).val := by
  unfold DotDims.lhsIdx
  rw [dif_neg (show ¬(0 : Fin S384x225.rank) ∈ dot_S384x225_S225x768_S384x768_1_0_0_1_n_n.lhsBatch by decide), dif_pos (show (0 : Fin S384x225.rank) ∈ dot_S384x225_S225x768_S384x768_1_0_0_1_n_n.lhsNonContracting by decide)]
  rfl
theorem lhs_D_1 (i : S384x768.Idx) (q : dot_S384x225_S225x768_S384x768_1_0_0_1_n_n.contr.Idx) :
    (dot_S384x225_S225x768_S384x768_1_0_0_1_n_n.lhsIdx i q 1).val = (q ⟨0, by decide⟩).val :=
  dot_S384x225_S225x768_S384x768_1_0_0_1_n_n.lhsIdx_val_of_single rfl i q
theorem rhs_D_0 (i : S384x768.Idx) (q : dot_S384x225_S225x768_S384x768_1_0_0_1_n_n.contr.Idx) :
    (dot_S384x225_S225x768_S384x768_1_0_0_1_n_n.rhsIdx i q 0).val = (q ⟨0, by decide⟩).val :=
  dot_S384x225_S225x768_S384x768_1_0_0_1_n_n.rhsIdx_val_of_single rfl i q
theorem rhs_D_1 (i : S384x768.Idx) (q : dot_S384x225_S225x768_S384x768_1_0_0_1_n_n.contr.Idx) :
    (dot_S384x225_S225x768_S384x768_1_0_0_1_n_n.rhsIdx i q 1).val = (i 1).val := by
  unfold DotDims.rhsIdx
  rw [dif_neg (show ¬(1 : Fin S225x768.rank) ∈ dot_S384x225_S225x768_S384x768_1_0_0_1_n_n.rhsBatch by decide), dif_pos (show (1 : Fin S225x768.rank) ∈ dot_S384x225_S225x768_S384x768_1_0_0_1_n_n.rhsNonContracting by decide)]
  rfl

/-- One product of the body into the zero accumulator, at row p and feature d: the sum over the 225 positions. -/
theorem mm_apply (A : FVec Ideal S384x225 .bf16) (B : FVec Ideal S225x768 .bf16) (p : Fin 384) (d : Fin 768) :
    matmul (F := Ideal) dot_S384x225_S225x768_S384x768_1_0_0_1_n_n none A B (constant (F := Ideal) S384x768 .f32 0x00000000#32) (ix2 p d)
      = ∑ q : Fin 225, A (ix2 p q) * B (ix2 q d) := by
  simp only [matmul]
  rw [Ideal.matmul_constant_zero_apply, ← Equiv.sum_comp (contrEquiv1 dot_S384x225_S225x768_S384x768_1_0_0_1_n_n 225 rfl rfl).symm]
  refine Finset.sum_congr rfl fun k _ => ?_
  have hk := contrEquiv1_symm_val dot_S384x225_S225x768_S384x768_1_0_0_1_n_n 225 rfl rfl k
  have el : dot_S384x225_S225x768_S384x768_1_0_0_1_n_n.lhsIdx (ix2 p d) ((contrEquiv1 dot_S384x225_S225x768_S384x768_1_0_0_1_n_n 225 rfl rfl).symm k) = ix2 p k := funext fun a => Fin.ext (by
    match a with
    | ⟨0, _⟩ => exact lhs_D_0 _ _
    | ⟨1, _⟩ => exact (lhs_D_1 _ _).trans hk)
  have er : dot_S384x225_S225x768_S384x768_1_0_0_1_n_n.rhsIdx (ix2 p d) ((contrEquiv1 dot_S384x225_S225x768_S384x768_1_0_0_1_n_n 225 rfl rfl).symm k) = ix2 k d := funext fun a => Fin.ext (by
    match a with
    | ⟨0, _⟩ => exact (rhs_D_0 _ _).trans hk
    | ⟨1, _⟩ => exact rhs_D_1 _ _)
  rw [el, er]

/-- The slice of the folded table at token value v, with its unit axis dropped, is the table at (position, v, feature). -/
theorem slice_apply (x1 : Vec Ideal S225x11x768 .f32) (v : Nat) (hv : v < 11)
    (inb : ∀ a, (![0, v, 0] : Fin 3 → Nat) a + S225x1x768.size a ≤ S225x11x768.size a) (q : Fin 225) (d : Fin 768) :
    shapeCast S225x768 (View.ld x1 (Rect.unit (s := S225x11x768) ![0, v, 0] S225x1x768.size inb)) shapeCasts_S225x1x768_S225x768 (ix2 q d)
      = x1 (ix3 q (⟨v, hv⟩ : Fin 11) d) := by
  refine (shapeCast_apply _ shapeCasts_S225x1x768_S225x768 (ix2 q d) (ix3 q (0 : Fin 1) d) ?_).trans ?_
  · rw [Shape.rowMajor_val_three, Shape.rowMajor_val_two]
    show (q.val * 1 + 0) * 768 + d.val = q.val * 768 + d.val
    omega
  · refine congrArg x1 (funext fun a => Fin.ext ?_)
    match a with
    | ⟨0, _⟩ => show 0 + 1 * q.val = q.val; omega
    | ⟨1, _⟩ => show v + 1 * 0 = v; omega
    | ⟨2, _⟩ => show 0 + 1 * d.val = d.val; omega

theorem offsets_zero : (![0, 0] : Fin 2 → Nat) = fun _ => 0 := funext fun a => by fin_cases a <;> rfl

/-- The bias row spread over the 384 rows reads the row at the feature. -/
theorem bias_apply (x2 : Vec Ideal S1x768 .f32) (p : Fin 384) (d : Fin 768) :
    broadcastTo S384x768 (shapeCast S1x768 (View.ld x2 r1_12) shapeCasts_S1x768_S1x768) broadcasts_S1x768_S384x768 (ix2 p d)
      = x2 (ix2 (0 : Fin 1) d) := by
  refine (broadcastTo_apply _ broadcasts_S1x768_S384x768 (ix2 p d) (ix2 (0 : Fin 1) d) ?_).trans ?_
  · intro a
    match a with
    | ⟨0, _⟩ => rfl
    | ⟨1, _⟩ => rfl
  · rw [View.ld_unit_zero (S := S1x768) offsets_zero]
    exact congrFun (shapeCast_self (s := S1x768) x2 shapeCasts_S1x768_S1x768) _

/-- The indicator vector of token value v, as the body builds it, at (row, position). -/
theorem onehot_apply (w : IVec S384x225 32) (v : Nat) (p : Fin 384) (q : Fin 225) :
    (truncf (F := Ideal) .bf16 (sitofp .f32 (extui 32 (cmpi .eq w (broadcast S384x225 (BitVec.ofNat 32 v))) natLt_1_32)) bitsLt_bf16_f32) (ix2 p q)
      = hot (w (ix2 p q)) v :=
  hot_scalar _ _

/-- One of the eleven products: the indicator of v against the table's slice at v. -/
theorem term_apply (w : IVec S384x225 32) (x1 : Vec Ideal S225x11x768 .f32) (v : Nat) (hv : v < 11)
    (inb : ∀ a, (![0, v, 0] : Fin 3 → Nat) a + S225x1x768.size a ≤ S225x11x768.size a) (p : Fin 384) (d : Fin 768) :
    matmul (F := Ideal) dot_S384x225_S225x768_S384x768_1_0_0_1_n_n none
        (truncf (F := Ideal) .bf16 (sitofp .f32 (extui 32 (cmpi .eq w (broadcast S384x225 (BitVec.ofNat 32 v))) natLt_1_32)) bitsLt_bf16_f32)
        (truncf (F := Ideal) .bf16 (shapeCast S225x768 (View.ld x1 (Rect.unit (s := S225x11x768) ![0, v, 0] S225x1x768.size inb)) shapeCasts_S225x1x768_S225x768) bitsLt_bf16_f32)
        (constant (F := Ideal) S384x768 .f32 0x00000000#32) (ix2 p d)
      = ∑ q : Fin 225, hot (w (ix2 p q)) v * x1 (ix3 q (⟨v, hv⟩ : Fin 11) d) := by
  rw [mm_apply]
  refine Finset.sum_congr rfl fun q _ => ?_
  rw [onehot_apply]
  exact congrArg (hot (w (ix2 p q)) v * ·) (slice_apply x1 v hv inb q d)

theorem pay3_apply (v0 : Vec Ideal S384x225 .i32) (x1 : Vec Ideal S225x11x768 .f32) (p : Fin 384) (d : Fin 768) :
    k1_pay3 (F := Ideal) v0 (View.ld x1 r1_1) (View.ld x1 r1_2) (View.ld x1 r1_3) (ix2 p d)
      = ((0 + ∑ q : Fin 225, hot (k1_pay2 (F := Ideal) v0 (ix2 p q)) 0 * x1 (ix3 q (0 : Fin 11) d))
          + ∑ q : Fin 225, hot (k1_pay2 (F := Ideal) v0 (ix2 p q)) 1 * x1 (ix3 q (1 : Fin 11) d))
          + ∑ q : Fin 225, hot (k1_pay2 (F := Ideal) v0 (ix2 p q)) 2 * x1 (ix3 q (2 : Fin 11) d) := by
  unfold k1_pay3
  rw [addf_apply, addf_apply, addf_apply, broadcast_apply,
    term_apply (k1_pay2 (F := Ideal) v0) x1 0 (by decide), term_apply (k1_pay2 (F := Ideal) v0) x1 1 (by decide),
    term_apply (k1_pay2 (F := Ideal) v0) x1 2 (by decide)]
  show Ideal.ofBits .f32 0x00000000#32 + _ + _ + _ = _
  rw [Ideal.ofBits_zero_f32]
  rfl

theorem pay4_apply (v0 : Vec Ideal S384x225 .i32) (p : Fin 384) (q : Fin 225) :
    k1_pay4 (F := Ideal) v0 (ix2 p q) = hot (k1_pay2 (F := Ideal) v0 (ix2 p q)) 3 :=
  onehot_apply (k1_pay2 (F := Ideal) v0) 3 p q

theorem pay6_apply (w : IVec S384x225 32) (p : Fin 384) (q : Fin 225) :
    k1_pay6 (F := Ideal) w (ix2 p q) = hot (w (ix2 p q)) 7 :=
  onehot_apply w 7 p q

/-- A product whose indicator operand is already known entry by entry. -/
theorem term_apply' (oh : FVec Ideal S384x225 .bf16) (g : Fin 225 → EReal) (x1 : Vec Ideal S225x11x768 .f32) (v : Nat) (hv : v < 11)
    (inb : ∀ a, (![0, v, 0] : Fin 3 → Nat) a + S225x1x768.size a ≤ S225x11x768.size a) (p : Fin 384) (d : Fin 768)
    (hoh : ∀ q, oh (ix2 p q) = g q) :
    matmul (F := Ideal) dot_S384x225_S225x768_S384x768_1_0_0_1_n_n none oh
        (truncf (F := Ideal) .bf16 (shapeCast S225x768 (View.ld x1 (Rect.unit (s := S225x11x768) ![0, v, 0] S225x1x768.size inb)) shapeCasts_S225x1x768_S225x768) bitsLt_bf16_f32)
        (constant (F := Ideal) S384x768 .f32 0x00000000#32) (ix2 p d)
      = ∑ q : Fin 225, g q * x1 (ix3 q (⟨v, hv⟩ : Fin 11) d) := by
  rw [mm_apply]
  refine Finset.sum_congr rfl fun q _ => ?_
  rw [hoh q]
  exact congrArg (g q * ·) (slice_apply x1 v hv inb q d)

theorem pay5_apply (w : IVec S384x225 32) (acc : FVec Ideal S384x768 .f32) (oh : FVec Ideal S384x225 .bf16) (g : Fin 225 → EReal)
    (x1 : Vec Ideal S225x11x768 .f32) (p : Fin 384) (d : Fin 768) (hoh : ∀ q, oh (ix2 p q) = g q) :
    k1_pay5 (F := Ideal) w acc oh (View.ld x1 r1_4) (View.ld x1 r1_5) (View.ld x1 r1_6) (View.ld x1 r1_7) (ix2 p d)
      = (((acc (ix2 p d) + ∑ q : Fin 225, g q * x1 (ix3 q (3 : Fin 11) d))
          + ∑ q : Fin 225, hot (w (ix2 p q)) 4 * x1 (ix3 q (4 : Fin 11) d))
          + ∑ q : Fin 225, hot (w (ix2 p q)) 5 * x1 (ix3 q (5 : Fin 11) d))
          + ∑ q : Fin 225, hot (w (ix2 p q)) 6 * x1 (ix3 q (6 : Fin 11) d) := by
  unfold k1_pay5
  rw [addf_apply, addf_apply, addf_apply, addf_apply,
    term_apply' oh g x1 3 (by decide) _ p d hoh, term_apply w x1 4 (by decide), term_apply w x1 5 (by decide),
    term_apply w x1 6 (by decide)]
  rfl

theorem pay7_apply (w : IVec S384x225 32) (acc : FVec Ideal S384x768 .f32) (oh : FVec Ideal S384x225 .bf16) (g : Fin 225 → EReal)
    (x1 : Vec Ideal S225x11x768 .f32) (x2 : Vec Ideal S1x768 .f32) (p : Fin 384) (d : Fin 768) (hoh : ∀ q, oh (ix2 p q) = g q) :
    k1_pay7 (F := Ideal) w acc oh (View.ld x1 r1_8) (View.ld x1 r1_9) (View.ld x1 r1_10) (View.ld x1 r1_11) (View.ld x2 r1_12) (ix2 p d)
      = ((((acc (ix2 p d) + ∑ q : Fin 225, g q * x1 (ix3 q (7 : Fin 11) d))
          + ∑ q : Fin 225, hot (w (ix2 p q)) 8 * x1 (ix3 q (8 : Fin 11) d))
          + ∑ q : Fin 225, hot (w (ix2 p q)) 9 * x1 (ix3 q (9 : Fin 11) d))
          + ∑ q : Fin 225, hot (w (ix2 p q)) 10 * x1 (ix3 q (10 : Fin 11) d))
          + x2 (ix2 (0 : Fin 1) d) := by
  unfold k1_pay7
  rw [addf_apply, addf_apply, addf_apply, addf_apply, addf_apply,
    term_apply' oh g x1 7 (by decide) _ p d hoh, term_apply w x1 8 (by decide), term_apply w x1 9 (by decide),
    term_apply w x1 10 (by decide), bias_apply]
  rfl

/-- Eleven terms added one after another onto zero are their sum. -/
theorem sum_eleven (f : Fin 11 → EReal) :
    ((((((((((0 + f 0) + f 1) + f 2) + f 3) + f 4) + f 5) + f 6) + f 7) + f 8) + f 9) + f 10 = ∑ v : Fin 11, f v := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc,
    Fin.sum_univ_castSucc, Fin.sum_univ_zero]
  rfl

/-- The patch block as the body reads it (a whole load, a cast to its own shape) is the block. -/
theorem words_eq (x0 : Vec Ideal S384x225 .i32) : k1_pay2 (F := Ideal) (View.ld x0 r1_0) = x0 := by
  unfold k1_pay2
  rw [View.ld_unit_zero (S := S384x225) offsets_zero]
  exact shapeCast_self (s := S384x225) x0 shapeCasts_S384x225_S384x225

/-- WHAT THE BODY STORES at local row p, feature d. -/
theorem out_apply (x0 : Vec Ideal S384x225 .i32) (x1 : Vec Ideal S225x11x768 .f32) (x2 : Vec Ideal S1x768 .f32)
    (x3 : Vec Ideal S384x768 .f32) (p : Fin 384) (d : Fin 768) :
    out1_4 (F := Ideal) x0 x1 x2 x3 (ix2 p d)
      = ((∑ v : Fin 11, ∑ q : Fin 225, hot (x0 (ix2 p q)) v.val * x1 (ix3 q v d)) + x2 (ix2 (0 : Fin 1) d)) + x3 (ix2 p d) := by
  unfold out1_4
  rw [View.canon_unit_zero offsets_zero]
  unfold k1_pay1
  rw [addf_apply, View.ld_unit_zero (S := S384x768) offsets_zero]
  rw [show shapeCast S384x768 x3 shapeCasts_S384x768_S384x768 = x3 from shapeCast_self (s := S384x768) x3 _]
  rw [pay7_apply _ _ _ (fun q => hot (x0 (ix2 p q)) 7) x1 x2 p d (fun q => by rw [pay6_apply, words_eq]),
    pay5_apply _ _ _ (fun q => hot (x0 (ix2 p q)) 3) x1 p d (fun q => by rw [pay4_apply, words_eq]),
    pay3_apply, words_eq]
  exact congrArg (· + x2 (ix2 (0 : Fin 1) d) + x3 (ix2 p d))
    (sum_eleven fun v => ∑ q : Fin 225, hot (x0 (ix2 p q)) v.val * x1 (ix3 q v d))

variable (V : (c : Dev nD) → (b : Ref sig .tc) → Buf (Elt Ideal) ((c : Thread nD τ).loc b))

/-- The whole projection as one function of the four arrays the launch finds. -/
abbrev projAll (c : Dev nD) : S1536x768.Idx → EReal := fun i =>
  projAt (V c main_v4) (V c main_v5) (V c main_v6) (V c main_v11) (i 0) (i 1)

/-- The block indices of the five windows, decided over the four points. -/
theorem block_indices : ∀ t : Fin cfg1.N,
    win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The patch window's block at point t is rows 384 t … 384 t + 383 of the patch matrix. -/
theorem blk0_apply (c : Dev nD) (t : Fin cfg1.N) (p : Fin 384) (q : Fin 225) (r : Fin 1536) (hr : r.val = t.val * 384 + p.val) :
    (iblk1 (F := Ideal) V c 0 t : Vec Ideal S384x225 .i32) (ix2 p q) = (V c main_v4 : S1536x225.Idx → BitVec 32) (ix2 r q) := by
  obtain ⟨e0, e1, -⟩ := block_indices t
  unfold iblk1
  rw [View.read_apply]
  show V c main_v4 _ = V c main_v4 _
  congr 1
  funext a
  apply Fin.ext
  match a with
  | ⟨0, _⟩ => show win1_0.index t (0 : Fin 2) * 384 + 1 * p.val = r.val; rw [e0, hr]; omega
  | ⟨1, _⟩ => show win1_0.index t (1 : Fin 2) * 225 + 1 * q.val = q.val; rw [e1]; omega

/-- The table window's block is the whole folded table at every point. -/
theorem blk1_apply (c : Dev nD) (t : Fin cfg1.N) (q : Fin 225) (v : Fin 11) (d : Fin 768) :
    (iblk1 (F := Ideal) V c 1 t : Vec Ideal S225x11x768 .f32) (ix3 q v d) = (V c main_v5 : S225x11x768.Idx → EReal) (ix3 q v d) := by
  obtain ⟨-, -, e0, e1, e2, -⟩ := block_indices t
  unfold iblk1
  rw [View.read_apply]
  show V c main_v5 _ = V c main_v5 _
  congr 1
  funext a
  apply Fin.ext
  match a with
  | ⟨0, _⟩ => show win1_1.index t (0 : Fin 3) * 225 + 1 * q.val = q.val; rw [e0]; omega
  | ⟨1, _⟩ => show win1_1.index t (1 : Fin 3) * 11 + 1 * v.val = v.val; rw [e1]; omega
  | ⟨2, _⟩ => show win1_1.index t (2 : Fin 3) * 768 + 1 * d.val = d.val; rw [e2]; omega

/-- The bias window's block is the whole bias row at every point. -/
theorem blk2_apply (c : Dev nD) (t : Fin cfg1.N) (u : Fin 1) (d : Fin 768) :
    (iblk1 (F := Ideal) V c 2 t : Vec Ideal S1x768 .f32) (ix2 u d) = (V c main_v6 : S1x768.Idx → EReal) (ix2 u d) := by
  obtain ⟨-, -, -, -, -, e0, e1, -⟩ := block_indices t
  unfold iblk1
  rw [View.read_apply]
  show V c main_v6 _ = V c main_v6 _
  congr 1
  funext a
  apply Fin.ext
  match a with
  | ⟨0, _⟩ => show win1_2.index t (0 : Fin 2) * 1 + 1 * u.val = u.val; rw [e0]; omega
  | ⟨1, _⟩ => show win1_2.index t (1 : Fin 2) * 768 + 1 * d.val = d.val; rw [e1]; omega

/-- The position window's block is the whole repeated position embedding at every point. -/
theorem blk3_apply (c : Dev nD) (t : Fin cfg1.N) (p : Fin 384) (d : Fin 768) :
    (iblk1 (F := Ideal) V c 3 t : Vec Ideal S384x768 .f32) (ix2 p d) = (V c main_v11 : S384x768.Idx → EReal) (ix2 p d) := by
  obtain ⟨-, -, -, -, -, -, -, e0, e1, -⟩ := block_indices t
  unfold iblk1
  rw [View.read_apply]
  show V c main_v11 _ = V c main_v11 _
  congr 1
  funext a
  apply Fin.ext
  match a with
  | ⟨0, _⟩ => show win1_3.index t (0 : Fin 2) * 384 + 1 * p.val = p.val; rw [e0]; omega
  | ⟨1, _⟩ => show win1_3.index t (1 : Fin 2) * 768 + 1 * d.val = d.val; rw [e1]; omega

/-- The whole projection at an index whose coordinates are r and d. -/
theorem projAll_apply (c : Dev nD) (i : S1536x768.Idx) (r : Fin 1536) (d : Fin 768) (h0 : (i 0).val = r.val) (h1 : (i 1).val = d.val) :
    projAll V c i = projAt (V c main_v4) (V c main_v5) (V c main_v6) (V c main_v11) r d := by
  have e0 : (i 0 : Fin 1536) = r := Fin.ext h0
  have e1 : (i 1 : Fin 768) = d := Fin.ext h1
  show projAt _ _ _ _ (i 0 : Fin 1536) (i 1 : Fin 768) = _
  rw [e0, e1]

/-- WHAT POINT t WRITES BACK is block t of the whole projection. -/
theorem written_back (c : Dev nD) (t : Fin cfg1.N) :
    (dat1 (F := Ideal) V c).flushed 4 t = ((cfg1.win 4).blk t).view.read (Elt Ideal) (projAll V c) := by
  show (cfg1.win 4).cut (grid1.coords t) ((dat1 (F := Ideal) V c).after 4 t) = _
  rw [after1_4]
  funext j
  show out1_4 (F := Ideal) (iblk1 V c 0 t) (iblk1 V c 1 t) (iblk1 V c 2 t) (iblk1 V c 3 t) j = projAll V c (((cfg1.win 4).blk t).view.emb j)
  obtain ⟨p, d, rfl⟩ : ∃ (p : Fin 384) (d : Fin 768), j = ix2 p d := ⟨j 0, j 1, eq_ix2 j⟩
  rw [out_apply]
  obtain ⟨-, -, -, -, -, -, -, -, -, e0, e1⟩ := block_indices t
  have ht : t.val < 4 := lt_of_lt_of_eq t.isLt N_1
  have hr : t.val * 384 + p.val < 1536 := by have := p.isLt; omega
  have h0 : ((((cfg1.win 4).blk t).view.emb (ix2 p d)) 0).val = t.val * 384 + p.val := by
    show win1_4.index t (0 : Fin 2) * 384 + 1 * p.val = _; rw [e0]; omega
  have h1 : ((((cfg1.win 4).blk t).view.emb (ix2 p d)) 1).val = d.val := by
    show win1_4.index t (1 : Fin 2) * 768 + 1 * d.val = _; rw [e1]; omega
  rw [projAll_apply V c _ ⟨t.val * 384 + p.val, hr⟩ d h0 h1]
  unfold projAt
  refine congrArg₂ (· + ·) (congrArg₂ (· + ·) (Finset.sum_congr rfl fun v _ => Finset.sum_congr rfl fun q _ => ?_)
    (blk2_apply V c t 0 d)) ?_
  · rw [blk0_apply V c t p q ⟨t.val * 384 + p.val, hr⟩ rfl, blk1_apply]
  · rw [blk3_apply]
    exact congrArg (fun x : Fin 384 => (V c main_v11 : S384x768.Idx → EReal) (ix2 x d))
      (Fin.ext (by show p.val = (t.val * 384 + p.val) % 384; have := p.isLt; omega))

/-- An index of the projection is in point t's block iff each coordinate is in the block's range on its axis. -/
theorem mem_block (t : Fin cfg1.N) (i : S1536x768.Idx) :
    i ∈ ((cfg1.win 4).blk t).view.set ↔ ∀ a : Fin 2, win1_4.index t a * S384x768.size a ≤ (i a).val
      ∧ (i a).val < win1_4.index t a * S384x768.size a + S384x768.size a := by
  show i ∈ ((View.whole main_v12).slice (win1_4.rect t)).set ↔ _
  rw [View.set_slice_whole, Rect.mem_set_unit]
  exact Iff.rfl

/-- After the second launch the projection's array holds `projAt` of the four arrays the launch found. -/
theorem proj_value (c : Dev nD) (r : Fin 1536) (d : Fin 768) :
    (dat1 (F := Ideal) V c).arrAt 4 cfg1.N (ix2 r d)
      = projAt (V c main_v4) (V c main_v5) (V c main_v6) (V c main_v11) r d := by
  have hq : r.val / 384 < 4 := by have := r.isLt; omega
  have hmem : ∀ t : Fin cfg1.N, t.val = r.val / 384 → (ix2 r d : S1536x768.Idx) ∈ ((cfg1.win 4).blk t).view.set := by
    intro t ht
    rw [mem_block]
    obtain ⟨-, -, -, -, -, -, -, -, -, e0, e1⟩ := block_indices t
    intro a
    match a with
    | ⟨0, _⟩ =>
      show win1_4.index t (0 : Fin 2) * 384 ≤ r.val ∧ r.val < win1_4.index t (0 : Fin 2) * 384 + 384
      rw [e0, ht]; omega
    | ⟨1, _⟩ =>
      show win1_4.index t (1 : Fin 2) * 768 ≤ d.val ∧ d.val < win1_4.index t (1 : Fin 2) * 768 + 768
      rw [e1]; have := d.isLt; omega
  refine ((dat1 (F := Ideal) V c).arrAt_apply_of_mem 4 (projAll V c) (fun t _ => written_back V c t) cfg1.N
    ⟨r.val / 384, lt_of_lt_of_eq hq N_1.symm⟩ (ix2 r d) (lt_of_lt_of_eq hq N_1.symm) (flush1_4 _) (hmem _ rfl)).trans ?_
  exact projAll_apply V c _ r d rfl rfl

end Cert.KernelIdeal.ProjValue

end
-- ==== Proof.lean ====
/-
  A patch embedding in two launches against one gather and one contraction.

  The reference gathers, for each of the 225 tokens of a patch, its row of the embedding table, lays the
  225 · 768 features out in one line and contracts them with a row of the weight; then it adds the bias, puts the
  class token in front and adds the position embedding. The kernel never forms the gathered features: its first
  launch folds the table into the weight,  wcomb q v d = ∑ e, E v e · W d (768 q + e),  and its second launch
  selects, per token, the entry of that table by an indicator product summed over the eleven token values, then
  adds bias and position embedding. The two agree on every token image whose words are token values, `0 … 10`
  (the precondition's last conjunct): there the kernel's clamp and the reference's wrap-and-clamp both leave a
  word alone, an indicator sum picks out one term, and the pairs (position, feature) are exactly the weight's
  columns. Sums are only reordered and regrouped, and `1 · x = x`, `0 · x = 0`: nothing that fails at an infinity, so
  the finiteness conjuncts are not used.

  The modules: Spec (the two functions `kerAt`, `refAt`), Bridge (they agree), PreRange (the precondition gives the
  range), FoldValue and ProjValue (what each launch leaves in its output array), HostValue (the host operations
  around the launches, read at an index: the result array is `kerAt` of the arguments), ValueRun (the run with its
  result kept), RefValue (the reference's stages read at an index: its result is `refAt`). Here they are put together.
-/
import proofs.«425871_j35725537968368_3_alg».proof.Defs
import proofs.«425871_j35725537968368_3_alg».proof.Proof.Gen.Kernel
import proofs.«425871_j35725537968368_3_alg».proof.Proof.Gen.Kernel.Frame
import proofs.«425871_j35725537968368_3_alg».proof.Proof.Gen.KernelIdeal
import proofs.«425871_j35725537968368_3_alg».proof.Proof.Gen.KernelIdeal.Frame
import proofs.«425871_j35725537968368_3_alg».proof.Proof.Gen.ReferenceIdeal
import proofs.«425871_j35725537968368_3_alg».proof.Proof.Gen.ReferenceIdeal.Run
import proofs.«425871_j35725537968368_3_alg».proof.Proof.Gen.ReferenceIdeal.Read
import proofs.«425871_j35725537968368_3_alg».proof.Proof.Gen.Pre_finite_inputs
import proofs.«425871_j35725537968368_3_alg».proof.Proof.Spec
import proofs.«425871_j35725537968368_3_alg».proof.Proof.Bridge
import proofs.«425871_j35725537968368_3_alg».proof.Proof.PreRange
import proofs.«425871_j35725537968368_3_alg».proof.Proof.RefValue
import proofs.«425871_j35725537968368_3_alg».proof.Proof.ValueRun
import proofs.«425871_j35725537968368_3_alg».proof.Proof.HostValue
import proofs.«425871_j35725537968368_3_alg».proof.Proof.FoldValue
import proofs.«425871_j35725537968368_3_alg».proof.Proof.ProjValue
import Idealize.ShloMosaic.Adequacy
import Idealize.ShloMosaic.Init

noncomputable section

open Idealize.ShloMosaic Idealize.ShloMosaic.TcCoe Idealize.SL.Sem Idealize.ShloMosaic.ValueIdx

namespace Cert.Proof.PatchEmbedClaims

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On token images with every word in `0 … 10` both programs end with the same result array: the kernel's is
    `kerAt` of the arguments (the two launches' values carried through the host operations), the reference's is
    `refAt` (its stages read at an index), and the two are one function on such images. -/
theorem algebraic : Cert.algebraic_KernelIdeal_ReferenceIdeal := by
  intro m ρ m' ρ' hpre hagree
  refine ⟨fun c => Cert.KernelIdeal.Gen.W7 m ρ c (Proc.devRef .tc Cert.KernelIdeal.main_v18),
    Cert.KernelIdeal.ValueRun.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq]
  funext i
  obtain ⟨b, j, d, rfl⟩ : ∃ (b : Fin 64) (j : Fin 25) (d : Fin 768), i = ix3 b j d := ⟨i 0, i 1, i 2, eq_ix3 i⟩
  rw [Cert.ReferenceIdeal.RefValue.ref_value, (hagree c).1, (hagree c).2.1, (hagree c).2.2.1, (hagree c).2.2.2.1,
    (hagree c).2.2.2.2.1, (hagree c).2.2.2.2.2]
  rw [← Cert.PatchEmbed.kerAt_eq_refAt _ _ _ _ _ _
    (Cert.Pre_finite_inputs.Range.tok_range (F := Ideal) _ _ _ _ _ _ (hpre c))]
  exact (Cert.KernelIdeal.HostValue.kernel_value m ρ (fun V c q v d => Cert.KernelIdeal.FoldValue.fold_value V c q v d) (fun V c r d => Cert.KernelIdeal.ProjValue.proj_value V c r d) c b j d).symm

end Cert.Proof.PatchEmbedClaims

namespace Cert.Proof

/-- The five claims together. The idealization rewrote nothing, so `preserves` has no conjunct. -/
theorem claim : Cert.Claim :=
  ⟨Cert.Kernel.Gen.facts, Cert.KernelIdeal.Gen.facts, Cert.ReferenceIdeal.Gen.facts, Cert.Pre_finite_inputs.Gen.facts,
    PatchEmbedClaims.frame_kernel, PatchEmbedClaims.frame_kernelIdeal, PatchEmbedClaims.frame_referenceIdeal, trivial,
    PatchEmbedClaims.algebraic⟩

end Cert.Proof

end
